-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x32 : Shape := ⟨2, ![64, 32]⟩
abbrev S32 : Shape := ⟨1, ![32]⟩
abbrev S96x40 : Shape := ⟨2, ![96, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S96x40 .f32) (main_arg9 : FVec F S40 .f32) (main_v33 : IVec S_ 1) : IVec S_ 1 :=
  let main_v34 : FVec F S96x40 .f32 := Host.absf main_arg8
  let main_cst_12 : FVec F S_ .f32 := constant S_ .f32 0x7F800000#32
  let main_v35 : FVec F S96x40 .f32 := broadcastInDim S96x40 ![] bcast_S_S96x40 main_cst_12
  let main_v36 : IVec S96x40 1 := cmpf .olt main_v34 main_v35
  let main_c_13 : IVec S_ 1 := constantI S_ 1 1#1
  let main_v37 : IVec S_ 1 := (fun x v => Host.reduce IntOp.andi x v reducesTo_S96x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S32 .f32) (main_arg6 : FVec F S64x32 .f32) (main_arg7 : FVec F S32 .f32) (main_arg8 : FVec F S96x40 .f32) (main_arg9 : FVec F S40 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1200000 32) (main_arg2 : FVec F S64x32 .f32) (main_arg3 : FVec F S32 .f32) (main_arg4 : FVec F S64x32 .f32) (main_arg5 : FVec F S32 .f32) (main_arg6 : FVec F S64x32 .f32) (main_arg7 : FVec F S32 .f32) (main_arg8 : FVec F S96x40 .f32) (main_arg9 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1200000 : Shape := ⟨2, ![2, 1200000]⟩
abbrev S64x32 : Shape := ⟨2, ![64, 32]⟩
abbrev S32 : Shape := ⟨1, ![32]⟩
abbrev S96x40 : Shape := ⟨2, ![96, 40]⟩
abbrev S40 : Shape := ⟨1, ![40]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x32 : Shape := ⟨2, ![1, 32]⟩
abbrev S1x40 : Shape := ⟨2, ![1, 40]⟩
abbrev S32x40 : Shape := ⟨2, ![32, 40]⟩
abbrev S100000x40 : Shape := ⟨2, ![100000, 40]⟩
abbrev S4000x64 : Shape := ⟨2, ![4000, 64]⟩
abbrev S4000x40 : Shape := ⟨2, ![4000, 40]⟩
abbrev S4000x32 : Shape := ⟨2, ![4000, 32]⟩
abbrev S4000 : Shape := ⟨1, ![4000]⟩
abbrev S4000x1 : Shape := ⟨2, ![4000, 1]⟩

abbrev nBuf : Space → Nat
  | .hbm => 90
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x32, .f32⟩
  | .hbm, ⟨3, _⟩ => ⟨S32, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S96x40, .f32⟩
  | .hbm, ⟨9, _⟩ => ⟨S40, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S100000, .i32⟩
  | .hbm, ⟨15, _⟩ => ⟨S1300000, .i32⟩
  | .hbm, ⟨16, _⟩ => ⟨S1300000, .i32⟩
  | .hbm, ⟨17, _⟩ => ⟨S_, .f32⟩
  | .hbm, ⟨18, _⟩ => ⟨S1300000, .f32⟩
  | .hbm, ⟨19, _⟩ => ⟨S_, .f32⟩
  | .hbm, ⟨20, _⟩ => ⟨S100000, .f32⟩
  | .hbm, ⟨21, _⟩ => ⟨S1300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1300000, .i32⟩
  | .hbm, ⟨33, _⟩ => ⟨S1300000, .i1⟩
  | .hbm, ⟨34, _⟩ => ⟨S_, .i32⟩
  | .hbm, ⟨35, _⟩ => ⟨S1300000, .i32⟩
  | .hbm, ⟨36, _⟩ => ⟨S1300000, .i32⟩
  | .hbm, ⟨37, _⟩ => ⟨S1300000, .i32⟩
  | .hbm, ⟨38, _⟩ => ⟨S1300000x1, .i32⟩
  | .hbm, ⟨39, _⟩ => ⟨S1300000, .f32⟩
  | .hbm, ⟨40, _⟩ => ⟨S_, .i32⟩
  | .hbm, ⟨41, _⟩ => ⟨S1300000, .i32⟩
  | .hbm, ⟨42, _⟩ => ⟨S1300000, .i1⟩
  | .hbm, ⟨43, _⟩ => ⟨S_, .i32⟩
  | .hbm, ⟨44, _⟩ => ⟨S1300000, .i32⟩
  | .hbm, ⟨45, _⟩ => ⟨S1300000, .i32⟩
  | .hbm, ⟨46, _⟩ => ⟨S1300000, .i32⟩
  | .hbm, ⟨47, _⟩ => ⟨S1300000x1, .i32⟩
  | .hbm, ⟨48, _⟩ => ⟨S1300000, .f32⟩
  | .hbm, ⟨49, _⟩ => ⟨S1300000, .f32⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x64, .f32⟩
  | .hbm, ⟨59, _⟩ => ⟨S1300000x1, .f32⟩
  | .hbm, ⟨60, _⟩ => ⟨S1300000x64, .f32⟩
  | .hbm, ⟨61, _⟩ => ⟨S1300000x64, .f32⟩
  | .hbm, ⟨62, _⟩ => ⟨S_, .f32⟩
  | .hbm, ⟨63, _⟩ => ⟨S100000x64, .f32⟩
  | .hbm, ⟨64, _⟩ => ⟨S1300000x1, .i32⟩
  | .hbm, ⟨65, _⟩ => ⟨S100000x64, .f32⟩
  | .hbm, ⟨66, _⟩ => ⟨S_, .i32⟩
  | .hbm, ⟨67, _⟩ => ⟨S1300000, .i32⟩
  | .hbm, ⟨68, _⟩ => ⟨S1300000, .i1⟩
  | .hbm, ⟨69, _⟩ => ⟨S_, .i32⟩
  | .hbm, ⟨70, _⟩ => ⟨S1300000, .i32⟩
  | .hbm, ⟨71, _⟩ => ⟨S1300000, .i32⟩
  | .hbm, ⟨72, _⟩ => ⟨S1300000, .i32⟩
  | .hbm, ⟨73, _⟩ => ⟨S1300000x1, .i32⟩
  | .hbm, ⟨74, _⟩ => ⟨S1300000x64, .f32⟩
  | .hbm, ⟨75, _⟩ => ⟨S1300000x1, .f32⟩
  | .hbm, ⟨76, _⟩ => ⟨S1300000x64, .f32⟩
  | .hbm, ⟨77, _⟩ => ⟨S1300000x64, .f32⟩
  | .hbm, ⟨78, _⟩ => ⟨S_, .f32⟩
  | .hbm, ⟨79, _⟩ => ⟨S100000x64, .f32⟩
  | .hbm, ⟨80, _⟩ => ⟨S1300000x1, .i32⟩
  | .hbm, ⟨81, _⟩ => ⟨S100000x64, .f32⟩
  | .hbm, ⟨82, _⟩ => ⟨S1x32, .f32⟩
  | .hbm, ⟨83, _⟩ => ⟨S1x32, .f32⟩
  | .hbm, ⟨84, _⟩ => ⟨S1x32, .f32⟩
  | .hbm, ⟨85, _⟩ => ⟨S1x40, .f32⟩
  | .hbm, ⟨86, _⟩ => ⟨S32x40, .f32⟩
  | .hbm, ⟨87, _⟩ => ⟨S32x40, .f32⟩
  | .hbm, ⟨88, _⟩ => ⟨S32x40, .f32⟩
  | .hbm, ⟨89, _⟩ => ⟨S100000x40, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S64x32, .f32⟩
  | .local _ .vmem, ⟨7, _⟩ => ⟨S1x32, .f32⟩
  | .local _ .vmem, ⟨8, _⟩ => ⟨S64x32, .f32⟩
  | .local _ .vmem, ⟨9, _⟩ => ⟨S1x32, .f32⟩
  | .local _ .vmem, ⟨10, _⟩ => ⟨S64x32, .f32⟩
  | .local _ .vmem, ⟨11, _⟩ => ⟨S1x32, .f32⟩
  | .local _ .vmem, ⟨12, _⟩ => ⟨S32x40, .f32⟩
  | .local _ .vmem, ⟨13, _⟩ => ⟨S32x40, .f32⟩
  | .local _ .vmem, ⟨14, _⟩ => ⟨S32x40, .f32⟩
  | .local _ .vmem, ⟨15, _⟩ => ⟨S1x40, .f32⟩
  | .local _ .vmem, ⟨16, _⟩ => ⟨S4000x40, .f32⟩
  | .local _ .vmem, ⟨17, _⟩ => ⟨S4000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x40 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x40 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x40 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4000x40 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S32_S1x32 : S32.ShapeCasts S1x32
  shapeCasts_S40_S1x40 : S40.ShapeCasts S1x40
  slices_S96x40_S32x40_0_0 : S96x40.Slices ![0, 0] S32x40
  slices_S96x40_S32x40_32_0 : S96x40.Slices ![32, 0] S32x40
  slices_S96x40_S32x40_64_0 : S96x40.Slices ![64, 0] S32x40
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  shapeCasts_S4000x64_S4000x64 : S4000x64.ShapeCasts S4000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x40_S32x40_0_0 : ∀ a, (![0, 0] : Fin 2 → Nat) a + S32x40.size a ≤ S32x40.size a
  h_S32x40 : 0 < S32x40.numel
  shapeCasts_S32x40_S32x40 : S32x40.ShapeCasts S32x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S4000x64_S64x32_S4000x32_1_0_0_1_n_n_wf : DotDims.WF S4000x64 S64x32 S4000x32 [1] [0] [0] [1] [] []
  dot_S4000x32_S32x40_S4000x40_1_0_0_1_n_n_wf : DotDims.WF S4000x32 S32x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x32.size a ≤ S64x32.size a
  hwx0_7 : ∀ i : grid0.Coords, EltTy.bits .f32 = 32 ∨ (Rect.block (s := S64x32) S64x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x40.size a ≤ S32x40.size a
  hwx0_9 : ∀ i : grid0.Coords, EltTy.bits .f32 = 32 ∨ (Rect.block (s := S32x40) S32x40.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x40.size a ≤ S32x40.size a
  hwx0_10 : ∀ i : grid0.Coords, EltTy.bits .f32 = 32 ∨ (Rect.block (s := S32x40) S32x40.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x40.size a ≤ S32x40.size a
  hwx0_11 : ∀ i : grid0.Coords, EltTy.bits .f32 = 32 ∨ (Rect.block (s := S32x40) S32x40.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x40.size a ≤ S1x40.size a
  hwx0_12 : ∀ i : grid0.Coords, EltTy.bits .f32 = 32 ∨ (Rect.block (s := S1x40) S1x40.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4000x40.size a ≤ S100000x40.size a
  hwx0_13 : ∀ i : grid0.Coords, EltTy.bits .f32 = 32 ∨ (Rect.block (s := S100000x40) S4000x40.size (cc0_transform_13 i) (hinb0_13 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x40_S4000x40_1_0_0_1_n_n : DotDims S4000x32 S32x40 S4000x40 where
  lhsContracting := [1]
  rhsContracting := [0]
  lhsNonContracting := [0]
  rhsNonContracting := [1]
  lhsBatch := []
  rhsBatch := []
  wf := dot_S4000x32_S32x40_S4000x40_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v57) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v58) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v60) S32x40.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v61) S32x40.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v62) S32x40.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v59) S1x40.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v63) S4000x40.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x32 : Shape := ⟨2, ![64, 32]⟩
abbrev S32 : Shape := ⟨1, ![32]⟩
abbrev S96x40 : Shape := ⟨2, ![96, 40]⟩
abbrev S40 : Shape := ⟨1, ![40]⟩
abbrev S1x1200000 : Shape := ⟨2, ![1, 1200000]⟩
abbrev S1200000 : Shape := ⟨1, ![1200000]⟩
abbrev S100000 : Shape := ⟨1, ![100000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S100000x32 : Shape := ⟨2, ![100000, 32]⟩
abbrev S1x32 : Shape := ⟨2, ![1, 32]⟩
abbrev S100000x96 : Shape := ⟨2, ![100000, 96]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 123
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x32, .f32⟩
  | .hbm, ⟨3, _⟩ => ⟨S32, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S96x40, .f32⟩
  | .hbm, ⟨9, _⟩ => ⟨S40, .f32⟩
  | .hbm, ⟨10, _⟩ => ⟨S1x1200000, .i32⟩
  | .hbm, ⟨11, _⟩ => ⟨S1200000, .i32⟩
  | .hbm, ⟨12, _⟩ => ⟨S1x1200000, .i32⟩
  | .hbm, ⟨13, _⟩ => ⟨S1200000, .i32⟩
  | .hbm, ⟨14, _⟩ => ⟨S100000, .i32⟩
  | .hbm, ⟨15, _⟩ => ⟨S1300000, .i32⟩
  | .hbm, ⟨16, _⟩ => ⟨S1300000, .i32⟩
  | .hbm, ⟨17, _⟩ => ⟨S_, .f32⟩
  | .hbm, ⟨18, _⟩ => ⟨S1300000, .f32⟩
  | .hbm, ⟨19, _⟩ => ⟨S_, .f32⟩
  | .hbm, ⟨20, _⟩ => ⟨S100000, .f32⟩
  | .hbm, ⟨21, _⟩ => ⟨S1300000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1300000, .i32⟩
  | .hbm, ⟨33, _⟩ => ⟨S1300000, .i1⟩
  | .hbm, ⟨34, _⟩ => ⟨S_, .i32⟩
  | .hbm, ⟨35, _⟩ => ⟨S1300000, .i32⟩
  | .hbm, ⟨36, _⟩ => ⟨S1300000, .i32⟩
  | .hbm, ⟨37, _⟩ => ⟨S1300000, .i32⟩
  | .hbm, ⟨38, _⟩ => ⟨S1300000x1, .i32⟩
  | .hbm, ⟨39, _⟩ => ⟨S1300000, .f32⟩
  | .hbm, ⟨40, _⟩ => ⟨S_, .i32⟩
  | .hbm, ⟨41, _⟩ => ⟨S1300000, .i32⟩
  | .hbm, ⟨42, _⟩ => ⟨S1300000, .i1⟩
  | .hbm, ⟨43, _⟩ => ⟨S_, .i32⟩
  | .hbm, ⟨44, _⟩ => ⟨S1300000, .i32⟩
  | .hbm, ⟨45, _⟩ => ⟨S1300000, .i32⟩
  | .hbm, ⟨46, _⟩ => ⟨S1300000, .i32⟩
  | .hbm, ⟨47, _⟩ => ⟨S1300000x1, .i32⟩
  | .hbm, ⟨48, _⟩ => ⟨S1300000, .f32⟩
  | .hbm, ⟨49, _⟩ => ⟨S1300000, .f32⟩
  | .hbm, ⟨50, _⟩ => ⟨S_, .i32⟩
  | .hbm, ⟨51, _⟩ => ⟨S1300000, .i32⟩
  | .hbm, ⟨52, _⟩ => ⟨S1300000, .i1⟩
  | .hbm, ⟨53, _⟩ => ⟨S_, .i32⟩
  | .hbm, ⟨54, _⟩ => ⟨S1300000, .i32⟩
  | .hbm, ⟨55, _⟩ => ⟨S1300000, .i32⟩
  | .hbm, ⟨56, _⟩ => ⟨S1300000, .i32⟩
  | .hbm, ⟨57, _⟩ => ⟨S1300000x1, .i32⟩
  | .hbm, ⟨58, _⟩ => ⟨S1300000x64, .f32⟩
  | .hbm, ⟨59, _⟩ => ⟨S1300000x1, .f32⟩
  | .hbm, ⟨60, _⟩ => ⟨S1300000x64, .f32⟩
  | .hbm, ⟨61, _⟩ => ⟨S1300000x64, .f32⟩
  | .hbm, ⟨62, _⟩ => ⟨S_, .f32⟩
  | .hbm, ⟨63, _⟩ => ⟨S100000x64, .f32⟩
  | .hbm, ⟨64, _⟩ => ⟨S1300000x1, .i32⟩
  | .hbm, ⟨65, _⟩ => ⟨S100000x64, .f32⟩
  | .hbm, ⟨66, _⟩ => ⟨S_, .i32⟩
  | .hbm, ⟨67, _⟩ => ⟨S1300000, .i32⟩
  | .hbm, ⟨68, _⟩ => ⟨S1300000, .i1⟩
  | .hbm, ⟨69, _⟩ => ⟨S_, .i32⟩
  | .hbm, ⟨70, _⟩ => ⟨S1300000, .i32⟩
  | .hbm, ⟨71, _⟩ => ⟨S1300000, .i32⟩
  | .hbm, ⟨72, _⟩ => ⟨S1300000, .i32⟩
  | .hbm, ⟨73, _⟩ => ⟨S1300000x1, .i32⟩
  | .hbm, ⟨74, _⟩ => ⟨S1300000x64, .f32⟩
  | .hbm, ⟨75, _⟩ => ⟨S1300000x1, .f32⟩
  | .hbm, ⟨76, _⟩ => ⟨S1300000x64, .f32⟩
  | .hbm, ⟨77, _⟩ => ⟨S1300000x64, .f32⟩
  | .hbm, ⟨78, _⟩ => ⟨S_, .f32⟩
  | .hbm, ⟨79, _⟩ => ⟨S100000x64, .f32⟩
  | .hbm, ⟨80, _⟩ => ⟨S1300000x1, .i32⟩
  | .hbm, ⟨81, _⟩ => ⟨S100000x64, .f32⟩
  | .hbm, ⟨82, _⟩ => ⟨S100000x32, .f32⟩
  | .hbm, ⟨83, _⟩ => ⟨S1x32, .f32⟩
  | .hbm, ⟨84, _⟩ => ⟨S100000x32, .f32⟩
  | .hbm, ⟨85, _⟩ => ⟨S100000x32, .f32⟩
  | .hbm, ⟨86, _⟩ => ⟨S_, .f32⟩
  | .hbm, ⟨87, _⟩ => ⟨S100000x32, .f32⟩
  | .hbm, ⟨88, _⟩ => ⟨S100000x32, .f32⟩
  | .hbm, ⟨89, _⟩ => ⟨S100000x32, .f32⟩
  | .hbm, ⟨90, _⟩ => ⟨S1x32, .f32⟩
  | .hbm, ⟨91, _⟩ => ⟨S100000x32, .f32⟩
  | .hbm, ⟨92, _⟩ => ⟨S100000x32, .f32⟩
  | .hbm, ⟨93, _⟩ => ⟨S_, .f32⟩
  | .hbm, ⟨94, _⟩ => ⟨S100000x32, .f32⟩
  | .hbm, ⟨95, _⟩ => ⟨S100000x32, .f32⟩
  | .hbm, ⟨96, _⟩ => ⟨S100000x32, .f32⟩
  | .hbm, ⟨97, _⟩ => ⟨S1x32, .f32⟩
  | .hbm, ⟨98, _⟩ => ⟨S100000x32, .f32⟩
  | .hbm, ⟨99, _⟩ => ⟨S100000x32, .f32⟩
  | .hbm, ⟨100, _⟩ => ⟨S_, .f32⟩
  | .hbm, ⟨101, _⟩ => ⟨S100000x32, .f32⟩
  | .hbm, ⟨102, _⟩ => ⟨S100000x32, .f32⟩
  | .hbm, ⟨103, _⟩ => ⟨S100000x96, .f32⟩
  | .hbm, ⟨104, _⟩ => ⟨S100000x40, .f32⟩
  | .hbm, ⟨105, _⟩ => ⟨S1x40, .f32⟩
  | .hbm, ⟨106, _⟩ => ⟨S100000x40, .f32⟩
  | .hbm, ⟨107, _⟩ => ⟨S100000x40, .f32⟩
  | .hbm, ⟨108, _⟩ => ⟨S_, .f32⟩
  | .hbm, ⟨109, _⟩ => ⟨S100000, .f32⟩
  | .hbm, ⟨110, _⟩ => ⟨S_, .f32⟩
  | .hbm, ⟨111, _⟩ => ⟨S100000, .f32⟩
  | .hbm, ⟨112, _⟩ => ⟨S100000, .f32⟩
  | .hbm, ⟨113, _⟩ => ⟨S100000x1, .f32⟩
  | .hbm, ⟨114, _⟩ => ⟨S100000x40, .f32⟩
  | .hbm, ⟨115, _⟩ => ⟨S100000x40, .f32⟩
  | .hbm, ⟨116, _⟩ => ⟨S100000x40, .f32⟩
  | .hbm, ⟨117, _⟩ => ⟨S_, .f32⟩
  | .hbm, ⟨118, _⟩ => ⟨S100000, .f32⟩
  | .hbm, ⟨119, _⟩ => ⟨S100000x1, .f32⟩
  | .hbm, ⟨120, _⟩ => ⟨S100000x1, .f32⟩
  | .hbm, ⟨121, _⟩ => ⟨S100000x40, .f32⟩
  | .hbm, ⟨122, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call1_cst : Ref sig .tc := ⟨.hbm, 86, rfl⟩
abbrev main_call1_v0 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call3_cst : Ref sig .tc := ⟨.hbm, 100, rfl⟩
abbrev main_call3_v0 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_call4_cst : Ref sig .tc := ⟨.hbm, 108, rfl⟩
abbrev main_call4_v0 : Ref sig .tc := ⟨.hbm, 109, rfl⟩
abbrev main_call4_cst_0 : Ref sig .tc := ⟨.hbm, 110, rfl⟩
abbrev main_call4_v1 : Ref sig .tc := ⟨.hbm, 111, rfl⟩
abbrev main_call4_v2 : Ref sig .tc := ⟨.hbm, 112, rfl⟩
abbrev main_call4_v3 : Ref sig .tc := ⟨.hbm, 113, rfl⟩
abbrev main_call4_v4 : Ref sig .tc := ⟨.hbm, 114, rfl⟩
abbrev main_call4_v5 : Ref sig .tc := ⟨.hbm, 115, rfl⟩
abbrev main_call4_v6 : Ref sig .tc := ⟨.hbm, 116, rfl⟩
abbrev main_call4_cst_1 : Ref sig .tc := ⟨.hbm, 117, rfl⟩
abbrev main_call4_v7 : Ref sig .tc := ⟨.hbm, 118, rfl⟩
abbrev main_call4_v8 : Ref sig .tc := ⟨.hbm, 119, rfl⟩
abbrev main_call4_v9 : Ref sig .tc := ⟨.hbm, 120, rfl⟩
abbrev main_call4_v10 : Ref sig .tc := ⟨.hbm, 121, rfl⟩
abbrev main_v76 : Ref sig .tc := ⟨.hbm, 122, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  concatenates_S1200000_S100000_S1300000_d0 : Shape.Concatenates [S1200000, S100000] S1300000 0
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  concatenates_S100000x32_S100000x32_S100000x32_S100000x96_d1 : Shape.Concatenates [S100000x32, S100000x32, S100000x32] S100000x96 1
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S100000x64_S64x32_S100000x32_1_0_0_1_n_n_wf : DotDims.WF S100000x64 S64x32 S100000x32 [1] [0] [0] [1] [] []
  dot_S100000x96_S96x40_S100000x40_1_0_0_1_n_n_wf : DotDims.WF S100000x96 S96x40 S100000x40 [1] [0] [0] [1] [] []

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x96_S96x40_S100000x40_1_0_0_1_n_n : DotDims S100000x96 S96x40 S100000x40 where
  lhsContracting := [1]
  rhsContracting := [0]
  lhsNonContracting := [0]
  rhsNonContracting := [1]
  lhsBatch := []
  rhsBatch := []
  wf := dot_S100000x96_S96x40_S100000x40_1_0_0_1_n_n_wf

class Facts : Prop extends Facts₀ where

variable [Facts]
-- ==== Proof.LibNary3.lean ====
/-
  A host operation over a literal family of THREE references (a concatenate of three operands), read with each operand's
  contents at its own reference.

  The general result of an n-operand operation reads operand k at the reference "family k", under a binder, where k is a
  variable and the family's k-th member is therefore no literal reference; what an earlier operation wrote there cannot be
  substituted. For a literal family of three the operands' contents are the three contents, one after the other
  (the same statement the library makes for four).
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of a three-operand operation, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for a one-pass rewriting of a whole line of operations (the result reference not used as a key). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.RowNet.lean ====
/-
  One row of the network, on the extended reals.

  Row r of the result depends only on row r of the three feature arrays. With a₁, a₂, a₃ those rows (64 entries each):

    yᵢ(k)  = max( Σ_c aᵢ(c) · Wᵢ(c, k) + bᵢ(k), 0 )                                   k < 32   (a hidden unit)
    L(j)   = Σ_k y₁(k) · A(k, j) + Σ_k y₂(k) · A(32 + k, j) + Σ_k y₃(k) · A(64 + k, j) + β(j)   j < 40   (a logit)
    out(j) = (L(j) − M) − log Σ_j' exp(L(j') − M),      M = max_j L(j)                          (log-softmax)

  The logits are written here as three sums over 32 positions. One sum over the 96 positions of the three hidden vectors laid
  end to end is the same number: a finite sum over 96 = 32 + 32 + 32 positions splits into its three stretches, which needs only
  that addition is commutative and associative, so it holds with infinite entries too.
-/
import Idealize.ShloMosaic.PureOps.Ideal.Laws
import Idealize.ShloMosaic.Lib.ValueIdx
import Mathlib.Algebra.BigOperators.Fin

noncomputable section

namespace Cert.RowNet

open Idealize.ShloMosaic Idealize.ShloMosaic.ValueIdx

/-- A hidden unit: the row against column k of the weights, plus the bias, clipped below at zero. -/
def hid (a : Fin 64 → EReal) (W : Fin 64 → Fin 32 → EReal) (b : Fin 32 → EReal) (k : Fin 32) : EReal :=
  max (∑ c : Fin 64, a c * W c k + b k) 0

/-- The largest of a row's 40 logits (−∞ is the neutral element of max). -/
def rowMax (L : Fin 40 → EReal) : EReal := (Finset.univ : Finset (Fin 40)).fold max ⊥ L

/-- Log-softmax of a row of logits, shifted by the row's maximum. -/
def lsm (L : Fin 40 → EReal) (j : Fin 40) : EReal :=
  (L j - rowMax L) - Ideal.log (∑ j' : Fin 40, Ideal.exp (L j' - rowMax L))

/-- The three stretches of the 96 positions. -/
def lo (k : Fin 32) : Fin 96 := ⟨k.val, by have := k.isLt; omega⟩
def mid (k : Fin 32) : Fin 96 := ⟨32 + k.val, by have := k.isLt; omega⟩
def hi (k : Fin 32) : Fin 96 := ⟨64 + k.val, by have := k.isLt; omega⟩

/-- A logit: the three hidden vectors against the three stretches of rows of the output weights, plus the bias. -/
def logit (y1 y2 y3 : Fin 32 → EReal) (A : Fin 96 → Fin 40 → EReal) (β : Fin 40 → EReal) (j : Fin 40) : EReal :=
  ((∑ k : Fin 32, y1 k * A (lo k) j + ∑ k : Fin 32, y2 k * A (mid k) j) + ∑ k : Fin 32, y3 k * A (hi k) j) + β j

/-- The whole row: hidden units, logits, log-softmax. -/
def out (a1 a2 a3 : Fin 64 → EReal) (W1 W2 W3 : Fin 64 → Fin 32 → EReal) (b1 b2 b3 : Fin 32 → EReal)
    (A : Fin 96 → Fin 40 → EReal) (β : Fin 40 → EReal) (j : Fin 40) : EReal :=
  lsm (logit (hid a1 W1 b1) (hid a2 W2 b2) (hid a3 W3 b3) A β) j

/-- A hidden unit depends on its row, weights and bias entry by entry. -/
theorem hid_congr {a a' : Fin 64 → EReal} {W W' : Fin 64 → Fin 32 → EReal} {b b' : Fin 32 → EReal}
    (ha : ∀ c, a c = a' c) (hW : ∀ c k, W c k = W' c k) (hb : ∀ k, b k = b' k) (k : Fin 32) :
    hid a W b k = hid a' W' b' k := by
  rw [funext ha, funext fun c => funext (hW c), funext hb]

/-- The whole result array: entry (r, j) is the row function of row r of the three feature arrays, at j. -/
def G (X H2 H3 : (⟨2, ![100000, 64]⟩ : Shape).Idx → EReal) (W1 W2 W3 : (⟨2, ![64, 32]⟩ : Shape).Idx → EReal)
    (b1 b2 b3 : (⟨1, ![32]⟩ : Shape).Idx → EReal) (A : (⟨2, ![96, 40]⟩ : Shape).Idx → EReal) (β : (⟨1, ![40]⟩ : Shape).Idx → EReal) :
    (⟨2, ![100000, 40]⟩ : Shape).Idx → EReal := fun i =>
  out (fun c => X (ix2 (i 0) c)) (fun c => H2 (ix2 (i 0) c)) (fun c => H3 (ix2 (i 0) c))
    (fun c k => W1 (ix2 c k)) (fun c k => W2 (ix2 c k)) (fun c k => W3 (ix2 c k))
    (fun k => b1 (ix1 k)) (fun k => b2 (ix1 k)) (fun k => b3 (ix1 k)) (fun k j => A (ix2 k j)) (fun j => β (ix1 j)) (i 1)

/-- A sum over 96 positions is the sum of its three stretches of 32. -/
theorem sum_three {M : Type*} [AddCommMonoid M] (f : Fin 96 → M) :
    ∑ k : Fin 96, f k = (∑ k : Fin 32, f (lo k) + ∑ k : Fin 32, f (mid k)) + ∑ k : Fin 32, f (hi k) := by
  have h1 : ∑ k : Fin 96, f k = ∑ k : Fin 64, f (Fin.castAdd 32 k) + ∑ k : Fin 32, f (Fin.natAdd 64 k) :=
    Fin.sum_univ_add (a := 64) (b := 32) f
  have h2 : ∑ k : Fin 64, f (Fin.castAdd 32 k)
      = ∑ k : Fin 32, f (Fin.castAdd 32 (Fin.castAdd 32 k)) + ∑ k : Fin 32, f (Fin.castAdd 32 (Fin.natAdd 32 k)) :=
    Fin.sum_univ_add (a := 32) (b := 32) (fun k => f (Fin.castAdd 32 k))
  rw [h1, h2]
  rfl

/-- The word of −∞ denotes the bottom of the extended reals, and that of +0 denotes zero. -/
theorem negInf_f32 : Ideal.ofBits .f32 0xFF800000#32 = (⊥ : EReal) := by simp [Ideal.ofBits, Ideal.ieee]

/-- Taking the maximum with −∞ first changes nothing. -/
theorem max_bot_fold (L : Fin 40 → EReal) : max (⊥ : EReal) (rowMax L) = rowMax L := max_eq_right bot_le

end Cert.RowNet

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.LibRowOps.lean ====
/-
  Row operations of a two-dimensional array, read at an index, at the extended reals.

  For an R × C array reduced along its columns, entry p of the result is a fold over the C entries of row p: their sum for an
  add-reduction, their maximum (from the accumulator's value) for a max-reduction, on the kernel's side (a vector
  multi-reduction) and on the host's side (a one-operand reduce) alike. A length-R vector recast as an R × 1 column and
  broadcast along the columns (the "keepdims" form of a row statistic) reads, at (p, q), the vector at p.
  All sizes are generic.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

variable {R C : Nat}

/-! ## The keepdims column -/

/-- A vector recast as a one-column matrix reads, at (p, 0), the vector at p. -/
theorem colShapeCast_apply {α : Type} (v : (⟨1, ![R]⟩ : Shape).Idx → α)
    (h : (⟨1, ![R]⟩ : Shape).ShapeCasts ⟨2, ![R, 1]⟩) (p : Fin R) :
    shapeCast ⟨2, ![R, 1]⟩ v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A one-column matrix broadcast along the columns reads, at (p, q), the column at p. -/
theorem colBroadcastTo_apply {α : Type} (w : (⟨2, ![R, 1]⟩ : Shape).Idx → α)
    (h : (⟨2, ![R, 1]⟩ : Shape).Broadcasts ⟨2, ![R, C]⟩) (p : Fin R) (q : Fin C) :
    broadcastTo ⟨2, ![R, C]⟩ w h (ix2 p q) = w (ix2 p (0 : Fin 1)) :=
  broadcastTo_apply w h (ix2 p q) (ix2 p (0 : Fin 1)) (fun a => by
    match a with
    | ⟨0, _⟩ =>
      show p.val = if R = 1 then 0 else p.val
      split
      · have := p.isLt; omega
      · rfl
    | ⟨1, _⟩ => show (0 : Nat) = if (1 : Nat) = 1 then 0 else _; rw [if_pos rfl])

/-- A vector recast as a one-row matrix reads, at (0, q), the vector at q. -/
theorem rowShapeCast_apply {α : Type} (v : (⟨1, ![C]⟩ : Shape).Idx → α)
    (h : (⟨1, ![C]⟩ : Shape).ShapeCasts ⟨2, ![1, C]⟩) (q : Fin C) :
    shapeCast ⟨2, ![1, C]⟩ v h (ix2 (0 : Fin 1) q) = v (ix1 q) :=
  shapeCast_apply v h (ix2 (0 : Fin 1) q) (ix1 q) (by
    rw [Shape.rowMajor_val_one, Shape.rowMajor_val_two]
    show q.val = (0 : Nat) * C + q.val
    omega)

/-- A one-row matrix broadcast down the rows reads, at (p, q), the row at q. -/
theorem rowBroadcastTo_apply {α : Type} (w : (⟨2, ![1, C]⟩ : Shape).Idx → α)
    (h : (⟨2, ![1, C]⟩ : Shape).Broadcasts ⟨2, ![R, C]⟩) (p : Fin R) (q : Fin C) :
    broadcastTo ⟨2, ![R, C]⟩ w h (ix2 p q) = w (ix2 (0 : Fin 1) q) :=
  broadcastTo_apply w h (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)

/-! ## A row's fold -/

/-- The index of row p with column k inserted is (p, k). -/
theorem lift_row (h : (⟨2, ![R, C]⟩ : Shape).Reduces [1] ⟨1, ![R]⟩) (p : Fin R) (k : Fin C) :
    h.lift (ix1 p) k = ix2 p k := by
  funext d
  match d with
  | ⟨0, _⟩ => exact Fin.ext rfl
  | ⟨1, _⟩ => exact Fin.ext rfl

/-- A kernel's add-reduction along the columns: entry p is the sum of row p. -/
theorem rowSum_apply {φ : FTy} (src : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ) (p : Fin R) :
    multiReduction .add [1] ⟨1, ![R]⟩ src acc h hφ hacc (ix1 p) = ∑ k : Fin C, (src (ix2 p k) : EReal) := by
  refine (Ideal.multiReduction_add_single src acc h hφ hacc (ix1 p)).trans ?_
  exact Finset.sum_congr rfl fun k _ => congrArg src (lift_row h p k)

/-- A kernel's max-reduction along the columns: entry p is the maximum of row p, from the accumulator's value. -/
theorem rowMax_apply {φ : FTy} (src : FVec Ideal ⟨2, ![R, C]⟩ φ) (acc : BitVec φ.bits)
    (h : (⟨2, ![R, C]⟩ : Shape).Reduces [1] ⟨1, ![R]⟩) (hφ : FKind.Formats φ) (hacc : acc = FKind.maximumf.neutral φ hφ) (p : Fin R) :
    multiReduction .maximumf [1] ⟨1, ![R]⟩ src acc h hφ hacc (ix1 p)
      = (Finset.univ : Finset (Fin C)).fold max (Ideal.ofBits φ acc : EReal) (fun k => (src (ix2 p k) : EReal)) := by
  refine (Ideal.multiReduction_maximumf_single src acc h hφ hacc (ix1 p)).trans ?_
  exact congrArg (fun f : Fin C → EReal => (Finset.univ : Finset (Fin C)).fold max (Ideal.ofBits φ acc : EReal) f)
    (funext fun k => congrArg src (lift_row h p k))

/-- The host's max-reduce along the columns: entry p is the maximum of row p, from the initial value. -/
theorem hostRowMax_apply (x : FVec Ideal ⟨2, ![R, C]⟩ .f32) (init : FVec Ideal ⟨0, ![]⟩ .f32)
    (h' : (⟨2, ![R, C]⟩ : Shape).ReducesTo [1] ⟨1, ![R]⟩) (h : (⟨2, ![R, C]⟩ : Shape).Reduces [1] ⟨1, ![R]⟩)
    (hu : 0 < (⟨0, ![]⟩ : Shape).numel) (p : Fin R) :
    Host.reduce FloatOps.maximumf x init h' hu (ix1 p)
      = (Finset.univ : Finset (Fin C)).fold max (init ix0 : EReal) (fun k => (x (ix2 p k) : EReal)) := by
  refine (Host.reduce_eq_fold_single FloatOps.maximumf x init h' h hu (ix1 p)).trans ?_
  rw [eq_ix0 (Shape.Idx.first hu)]
  exact congrArg (fun f : Fin C → EReal => (Finset.univ : Finset (Fin C)).fold max (init ix0 : EReal) f)
    (funext fun k => congrArg x (lift_row h p k))

end Cert.LibRowOps

end
-- ==== Proof.KernelRow.lean ====
/-
  The kernel body's stored value, entry by entry, is the row function of its input blocks.

  The body holds 4000 rows at a time. Its three hidden-layer values are relu(block · W + b), each a product against a whole
  weight matrix into a zero accumulator (a plain sum over the 64 shared positions, whatever the operands' float format: a change
  of format is the identity on the extended reals); its logits are the three products against the three 32-row pieces of the
  output weights, added left to right, plus the bias row; and the stored value is the log-softmax of each row of logits, whose
  row maximum and row sum are reductions along the 40 columns kept as a one-column matrix and broadcast back.
  So entry (p, j) of the stored value is RowNet.lsm of row p of the logits, and entry (p, j) of the logits is the three-term
  sum of RowNet.logit with the pieces' rows in place of the stretches.
-/
import proofs.«122745_j4320737100473_1_alg».proof.Proof.Gen.KernelIdeal.Skeleton
import proofs.«122745_j4320737100473_1_alg».proof.Proof.RowNet
import proofs.«122745_j4320737100473_1_alg».proof.Proof.LibPlainDot
import proofs.«122745_j4320737100473_1_alg».proof.Proof.LibRowOps

noncomputable section

namespace Cert.KernelIdeal.RowValue

open Cert.KernelIdeal Cert.KernelIdeal.Gen Idealize.ShloMosaic Idealize.ShloMosaic.ValueIdx Cert.RowNet

/-- A hidden layer on a block: entry (p, k) is the hidden unit k of row p. The activations may be any 4000 × 64 value. -/
theorem hid_block (a : FVec Ideal S4000x64 .f32) (W : FVec Ideal S64x32 .f32) (b : FVec Ideal S1x32 .f32) (p : Fin 4000) (k : Fin 32) :
    maximumf (addf (matmul dot_S4000x64_S64x32_S4000x32_1_0_0_1_n_n none (truncf .bf16 a bitsLt_bf16_f32) (truncf .bf16 W bitsLt_bf16_f32)
          (constant S4000x32 .f32 0x00000000#32))
        (broadcastTo S4000x32 (shapeCast S1x32 b shapeCasts_S1x32_S1x32) broadcasts_S1x32_S4000x32))
      (broadcast S4000x32 (Scalar.ofBits .f32 0x00000000#32)) (ix2 p k)
    = hid (fun c => a (ix2 p c)) (fun c k => W (ix2 c k)) (fun k => b (ix2 (0 : Fin 1) k)) k := by
  have hm : matmul dot_S4000x64_S64x32_S4000x32_1_0_0_1_n_n none (truncf .bf16 a bitsLt_bf16_f32) (truncf .bf16 W bitsLt_bf16_f32)
      (constant S4000x32 .f32 0x00000000#32) (ix2 p k) = ∑ c : Fin 64, (a (ix2 p c) : EReal) * (W (ix2 c k) : EReal) :=
    Cert.LibPlainDot.matmul_plain_zero (M := 4000) (K := 64) (N := 32) none (truncf .bf16 a bitsLt_bf16_f32) (truncf .bf16 W bitsLt_bf16_f32) (ix2 p k)
  have hb : broadcastTo S4000x32 (shapeCast S1x32 b shapeCasts_S1x32_S1x32) broadcasts_S1x32_S4000x32 (ix2 p k) = b (ix2 (0 : Fin 1) k) := by
    rw [shapeCast_self]
    exact Cert.LibRowOps.rowBroadcastTo_apply b broadcasts_S1x32_S4000x32 p k
  show max (_ + _) (Ideal.ofBits .f32 0x00000000#32) = max (_ + _) 0
  rw [hm, hb, Ideal.ofBits_zero_f32]

/-- The first hidden value (no recast of the block). -/
theorem pay2_apply (v0 : FVec Ideal S4000x64 .f32) (v8 : FVec Ideal S64x32 .f32) (v14 : FVec Ideal S1x32 .f32) (p : Fin 4000) (k : Fin 32) :
    k0_pay2 (F := Ideal) v0 v8 v14 (ix2 p k)
      = hid (fun c => v0 (ix2 p c)) (fun c k => v8 (ix2 c k)) (fun k => v14 (ix2 (0 : Fin 1) k)) k :=
  hid_block v0 v8 v14 p k

/-- The second and third hidden values recast their block to its own shape first, which changes nothing. -/
theorem pay3_apply (v2 : FVec Ideal S4000x64 .f32) (v10 : FVec Ideal S64x32 .f32) (v16 : FVec Ideal S1x32 .f32) (p : Fin 4000) (k : Fin 32) :
    k0_pay3 (F := Ideal) v2 v10 v16 (ix2 p k)
      = hid (fun c => v2 (ix2 p c)) (fun c k => v10 (ix2 c k)) (fun k => v16 (ix2 (0 : Fin 1) k)) k := by
  refine (hid_block (shapeCast S4000x64 v2 shapeCasts_S4000x64_S4000x64) v10 v16 p k).trans ?_
  rw [shapeCast_self]

theorem pay4_apply (v5 : FVec Ideal S4000x64 .f32) (v12 : FVec Ideal S64x32 .f32) (v18 : FVec Ideal S1x32 .f32) (p : Fin 4000) (k : Fin 32) :
    k0_pay4 (F := Ideal) v5 v12 v18 (ix2 p k)
      = hid (fun c => v5 (ix2 p c)) (fun c k => v12 (ix2 c k)) (fun k => v18 (ix2 (0 : Fin 1) k)) k := by
  refine (hid_block (shapeCast S4000x64 v5 shapeCasts_S4000x64_S4000x64) v12 v18 p k).trans ?_
  rw [shapeCast_self]

/-- One of the three products of the logits: a hidden value against a 32 × 40 piece of the output weights. -/
theorem piece_block (y : FVec Ideal S4000x32 .f32) (A : FVec Ideal S32x40 .f32) (p : Fin 4000) (j : Fin 40) :
    matmul dot_S4000x32_S32x40_S4000x40_1_0_0_1_n_n none (truncf .bf16 y bitsLt_bf16_f32)
        (truncf .bf16 (shapeCast S32x40 A shapeCasts_S32x40_S32x40) bitsLt_bf16_f32) (constant S4000x40 .f32 0x00000000#32) (ix2 p j)
      = ∑ k : Fin 32, (y (ix2 p k) : EReal) * (A (ix2 k j) : EReal) := by
  rw [shapeCast_self]
  exact Cert.LibPlainDot.matmul_plain_zero (M := 4000) (K := 32) (N := 40) none (truncf .bf16 y bitsLt_bf16_f32) (truncf .bf16 A bitsLt_bf16_f32) (ix2 p j)

/-- The log-softmax tail on a block of logits: entry (p, j) is the log-softmax of row p at j. -/
theorem lsm_block (L : FVec Ideal S4000x40 .f32) (p : Fin 4000) (j : Fin 40) :
    subf (subf L (broadcastTo S4000x40 (shapeCast S4000x1 (multiReduction .maximumf [1] S4000 L 0xFF800000#32 reduces_S4000x40_S4000 (.inl rfl) rfl)
            shapeCasts_S4000_S4000x1) broadcasts_S4000x1_S4000x40))
        (broadcastTo S4000x40 (log (shapeCast S4000x1 (multiReduction .add [1] S4000
            (exp (subf L (broadcastTo S4000x40 (shapeCast S4000x1 (multiReduction .maximumf [1] S4000 L 0xFF800000#32 reduces_S4000x40_S4000 (.inl rfl) rfl)
              shapeCasts_S4000_S4000x1) broadcasts_S4000x1_S4000x40)))
            0x00000000#32 reduces_S4000x40_S4000 (.inl rfl) rfl) shapeCasts_S4000_S4000x1)) broadcasts_S4000x1_S4000x40) (ix2 p j)
      = lsm (fun j => L (ix2 p j)) j := by
  -- the row maximum, broadcast back, at any column of row p: the column at p, which is the vector at p, which is the fold over row p
  have hM : ∀ q : Fin 40, broadcastTo S4000x40 (shapeCast S4000x1 (multiReduction .maximumf [1] S4000 L 0xFF800000#32 reduces_S4000x40_S4000 (.inl rfl) rfl)
      shapeCasts_S4000_S4000x1) broadcasts_S4000x1_S4000x40 (ix2 p q) = rowMax (fun j => L (ix2 p j)) := fun q =>
    (Cert.LibRowOps.colBroadcastTo_apply _ broadcasts_S4000x1_S4000x40 p q).trans
      ((Cert.LibRowOps.colShapeCast_apply _ shapeCasts_S4000_S4000x1 p).trans
        ((Cert.LibRowOps.rowMax_apply L 0xFF800000#32 reduces_S4000x40_S4000 (.inl rfl) rfl p).trans
          (by rw [negInf_f32]; rfl)))
  -- the logarithm of the row's sum of exponentials, broadcast back
  have hS : broadcastTo S4000x40 (log (shapeCast S4000x1 (multiReduction .add [1] S4000
      (exp (subf L (broadcastTo S4000x40 (shapeCast S4000x1 (multiReduction .maximumf [1] S4000 L 0xFF800000#32 reduces_S4000x40_S4000 (.inl rfl) rfl)
        shapeCasts_S4000_S4000x1) broadcasts_S4000x1_S4000x40)))
      0x00000000#32 reduces_S4000x40_S4000 (.inl rfl) rfl) shapeCasts_S4000_S4000x1)) broadcasts_S4000x1_S4000x40 (ix2 p j)
      = Ideal.log (∑ j' : Fin 40, Ideal.exp (L (ix2 p j') - rowMax (fun j => L (ix2 p j)))) :=
    (Cert.LibRowOps.colBroadcastTo_apply _ broadcasts_S4000x1_S4000x40 p j).trans
      (congrArg Ideal.log
        ((Cert.LibRowOps.colShapeCast_apply _ shapeCasts_S4000_S4000x1 p).trans
          ((Cert.LibRowOps.rowSum_apply _ 0x00000000#32 reduces_S4000x40_S4000 (.inl rfl) rfl p).trans
            (Finset.sum_congr rfl fun j' _ => congrArg (fun z : EReal => Ideal.exp (L (ix2 p j') - z)) (hM j')))))
  exact congrArg₂ (fun a b : EReal => (L (ix2 p j) - a) - b) (hM j) hS

/-- The stored value: log-softmax of the logits of row p. -/
theorem pay1_apply (v24 v29 v34 : FVec Ideal S4000x32 .f32) (v35 v38 v41 : FVec Ideal S32x40 .f32) (v44 : FVec Ideal S1x40 .f32)
    (p : Fin 4000) (j : Fin 40) :
    k0_pay1 (F := Ideal) v24 v29 v34 v35 v38 v41 v44 (ix2 p j)
      = lsm (fun j => ((∑ k : Fin 32, (v24 (ix2 p k) : EReal) * (v35 (ix2 k j) : EReal) + ∑ k : Fin 32, (v29 (ix2 p k) : EReal) * (v38 (ix2 k j) : EReal))
          + ∑ k : Fin 32, (v34 (ix2 p k) : EReal) * (v41 (ix2 k j) : EReal)) + (v44 (ix2 (0 : Fin 1) j) : EReal)) j := by
  unfold k0_pay1
  refine (lsm_block _ p j).trans ?_
  refine congrArg (fun L : Fin 40 → EReal => lsm L j) (funext fun q => ?_)
  show ((_ + _) + _) + _ = _
  rw [piece_block v24 v35 p q, piece_block v29 v38 p q, piece_block v34 v41 p q, shapeCast_self]
  exact congrArg (_ + ·) (Cert.LibRowOps.rowBroadcastTo_apply v44 broadcasts_S1x40_S4000x40 p q)

/-- WHAT THE BODY STORES AT (p, q), from what its blocks hold: if row p of each feature block is row r of its array, the weight
    and bias blocks are the arrays, and the three 32 × 40 blocks are the three stretches of rows of the 96 × 40 output weights,
    then the stored value at (p, q) is the row function of row r, at q. -/
theorem point_value
    (X H2 H3 : (⟨2, ![100000, 64]⟩ : Shape).Idx → EReal) (W1 W2 W3 : (⟨2, ![64, 32]⟩ : Shape).Idx → EReal)
    (b1 b2 b3 : (⟨1, ![32]⟩ : Shape).Idx → EReal) (A : (⟨2, ![96, 40]⟩ : Shape).Idx → EReal) (β : (⟨1, ![40]⟩ : Shape).Idx → EReal)
    (xb h2b h3b : FVec Ideal S4000x64 .f32) (w1b w2b w3b : FVec Ideal S64x32 .f32) (b1b b2b b3b : FVec Ideal S1x32 .f32)
    (a1b a2b a3b : FVec Ideal S32x40 .f32) (βb : FVec Ideal S1x40 .f32)
    (p : Fin 4000) (q : Fin 40) (r : Fin 100000)
    (hx : ∀ c, xb (ix2 p c) = X (ix2 r c)) (hh2 : ∀ c, h2b (ix2 p c) = H2 (ix2 r c)) (hh3 : ∀ c, h3b (ix2 p c) = H3 (ix2 r c))
    (hw1 : ∀ c k, w1b (ix2 c k) = W1 (ix2 c k)) (hw2 : ∀ c k, w2b (ix2 c k) = W2 (ix2 c k)) (hw3 : ∀ c k, w3b (ix2 c k) = W3 (ix2 c k))
    (hb1 : ∀ k, b1b (ix2 (0 : Fin 1) k) = b1 (ix1 k)) (hb2 : ∀ k, b2b (ix2 (0 : Fin 1) k) = b2 (ix1 k)) (hb3 : ∀ k, b3b (ix2 (0 : Fin 1) k) = b3 (ix1 k))
    (ha1 : ∀ k j, a1b (ix2 k j) = A (ix2 (lo k) j)) (ha2 : ∀ k j, a2b (ix2 k j) = A (ix2 (mid k) j)) (ha3 : ∀ k j, a3b (ix2 k j) = A (ix2 (hi k) j))
    (hβ : ∀ j, βb (ix2 (0 : Fin 1) j) = β (ix1 j)) :
    k0_pay1 (F := Ideal) (k0_pay2 xb w1b b1b) (k0_pay3 h2b w2b b2b) (k0_pay4 h3b w3b b3b) a1b a2b a3b βb (ix2 p q)
      = out (fun c => X (ix2 r c)) (fun c => H2 (ix2 r c)) (fun c => H3 (ix2 r c))
          (fun c k => W1 (ix2 c k)) (fun c k => W2 (ix2 c k)) (fun c k => W3 (ix2 c k))
          (fun k => b1 (ix1 k)) (fun k => b2 (ix1 k)) (fun k => b3 (ix1 k)) (fun k j => A (ix2 k j)) (fun j => β (ix1 j)) q := by
  rw [pay1_apply]
  unfold out
  refine congrArg (fun L : Fin 40 → EReal => lsm L q) (funext fun j => ?_)
  unfold logit
  refine congrArg₂ (· + ·) (congrArg₂ (· + ·) (congrArg₂ (· + ·) (Finset.sum_congr rfl fun k _ => ?_) (Finset.sum_congr rfl fun k _ => ?_))
    (Finset.sum_congr rfl fun k _ => ?_)) (hβ j)
  · rw [pay2_apply, ha1]
    exact congrArg (· * _) (hid_congr hx hw1 hb1 k)
  · rw [pay3_apply, ha2]
    exact congrArg (· * _) (hid_congr hh2 hw2 hb2 k)
  · rw [pay4_apply, ha3]
    exact congrArg (· * _) (hid_congr hh3 hw3 hb3 k)

end Cert.KernelIdeal.RowValue

end
-- ==== Proof.HostArrays.lean ====
/-
  The arrays the host writes before the region.

  Before the kernel is launched the host computes its operands: the once- and twice-propagated features (a degree count by a
  scatter-add of ones, its inverse square root selected where positive, two gathers of it multiplied into an edge weight, then for each
  hop a gather of rows, a scaling and a scatter-add), each bias recast as a one-row matrix, and the three 32-row stretches of the
  output weights taken as slices. The reference begins with the very same operations on the very same arguments, so the two
  propagated arrays are, term for term, the reference's: nothing of that computation is opened, the two texts are only
  compared. The recasts and slices are read at an index.
-/
import proofs.«122745_j4320737100473_1_alg».proof.Proof.Gen.KernelIdeal.Frame
import proofs.«122745_j4320737100473_1_alg».proof.Proof.RefRead
import proofs.«122745_j4320737100473_1_alg».proof.Proof.LibRowOps
import proofs.«122745_j4320737100473_1_alg».proof.Proof.RowNet

set_option maxRecDepth 16384

noncomputable section

namespace Cert.KernelIdeal.HostArrays

open Cert.KernelIdeal Cert.KernelIdeal.Gen Idealize.ShloMosaic Idealize.ShloMosaic.TcCoe Idealize.ShloMosaic.ValueIdx Idealize.SL.Sem
open Idealize.ShloMosaic.StableHlo Cert.RowNet

variable {F : FTy → Type} [FloatOps F]
variable (m : (ℓ : Loc nD τ sig) → Buf (Elt F) ℓ)

/-- What a buffer holds when the region is entered is the composition of the host operations before it that it depends on, in order,
    applied to the arguments: each operation's result is its function of the contents of the buffers it reads. -/
local macro "host_value" : tactic => `(tactic| (
  dsimp only [V]
  simp only [hostOps0, hostOps0_1, hostOps0_2, List.flatten_cons, List.flatten_nil, List.append_nil, List.cons_append, List.nil_append]
  after_results_simp
  <;> (repeat (first
        | rw [nullary_result] | rw [unary_result] | rw [binary_result] | rw [ternary_result] | rw [quaternary_result]
        | rw [reshape_result]
        | (rw [nullary_result_ne]; rotate_left; decide)
        | (rw [unary_result_ne]; rotate_left; decide)
        | (rw [binary_result_ne]; rotate_left; decide)
        | (rw [ternary_result_ne]; rotate_left; decide)
        | (rw [quaternary_result_ne]; rotate_left; decide)
        | (rw [reshape_result_ne]; rotate_left; decide)))
  <;> (try simp only [TRef.ofBuf, TRef.toBuf, cast_eq])
  <;> rfl))

/-! ## Recasts and slices -/

theorem V_b1 (c : Dev nD) : (V m c main_v56 : S1x32.Idx → Elt F .f32) = shapeCast S1x32 (m ((c : Thread nD τ).loc main_arg3)) shapeCasts_S32_S1x32 := by host_value
theorem V_b2 (c : Dev nD) : (V m c main_v57 : S1x32.Idx → Elt F .f32) = shapeCast S1x32 (m ((c : Thread nD τ).loc main_arg5)) shapeCasts_S32_S1x32 := by host_value
theorem V_b3 (c : Dev nD) : (V m c main_v58 : S1x32.Idx → Elt F .f32) = shapeCast S1x32 (m ((c : Thread nD τ).loc main_arg7)) shapeCasts_S32_S1x32 := by host_value
theorem V_β (c : Dev nD) : (V m c main_v59 : S1x40.Idx → Elt F .f32) = shapeCast S1x40 (m ((c : Thread nD τ).loc main_arg9)) shapeCasts_S40_S1x40 := by host_value
theorem V_A1 (c : Dev nD) : (V m c main_v60 : S32x40.Idx → Elt F .f32)
    = extractStridedSlice S32x40 ![0, 0] (m ((c : Thread nD τ).loc main_arg8)) slices_S96x40_S32x40_0_0 := by host_value
theorem V_A2 (c : Dev nD) : (V m c main_v61 : S32x40.Idx → Elt F .f32)
    = extractStridedSlice S32x40 ![32, 0] (m ((c : Thread nD τ).loc main_arg8)) slices_S96x40_S32x40_32_0 := by host_value
theorem V_A3 (c : Dev nD) : (V m c main_v62 : S32x40.Idx → Elt F .f32)
    = extractStridedSlice S32x40 ![64, 0] (m ((c : Thread nD τ).loc main_arg8)) slices_S96x40_S32x40_64_0 := by host_value

/-! ## The propagated features are the reference's -/

set_option maxHeartbeats 16000000 in
/-- One hop: the kernel's host text is the reference's. -/
theorem V_h2 (c : Dev nD) : (V m c main_v42 : S100000x64.Idx → Elt F .f32)
    = Cert.ReferenceIdeal.ReadP.val_main_v42 (F := F) (m ((c : Thread nD τ).loc main_arg0)) (m ((c : Thread nD τ).loc main_arg1)) := by host_value

set_option maxHeartbeats 16000000 in
/-- Two hops. -/
theorem V_h3 (c : Dev nD) : (V m c main_v55 : S100000x64.Idx → Elt F .f32)
    = Cert.ReferenceIdeal.ReadP.val_main_v55 (F := F) (m ((c : Thread nD τ).loc main_arg0)) (m ((c : Thread nD τ).loc main_arg1)) := by host_value

end Cert.KernelIdeal.HostArrays

end
-- ==== Proof.KernelArray.lean ====
/-
  From the blocks to the whole result array.

  The grid has 25 points; point t works on rows 4000·t … 4000·t + 3999. The three feature windows and the output window move with the
  point (block row t, block column 0); the ten weight and bias windows are whole arrays, the same at every point. So row p of a
  feature block at point t is row 4000·t + p of its array, and by the body's value at a point (point_value) what point t writes back
  is block t of ONE function G of the arrays: entry (r, j) is the row function of row r. The 25 output blocks tile the 100000 rows
  (row r lies in block r / 4000), so after the run the result array is G.
-/
import proofs.«122745_j4320737100473_1_alg».proof.Proof.Gen.KernelIdeal.Value
import proofs.«122745_j4320737100473_1_alg».proof.Proof.KernelRow
import proofs.«122745_j4320737100473_1_alg».proof.Proof.HostArrays

set_option maxRecDepth 16384

noncomputable section

namespace Cert.KernelIdeal.ArrayValue

open Cert.KernelIdeal Cert.KernelIdeal.Gen Idealize.ShloMosaic Idealize.ShloMosaic.TcCoe Idealize.ShloMosaic.ValueIdx Idealize.SL.Sem
open Idealize.ShloMosaic.Pipeline (Dat)
open Cert.RowNet Cert.KernelIdeal.RowValue Cert.KernelIdeal.HostArrays

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid -/

/-- The moving windows sit at block row t, block column 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0 :=
  (by decide +kernel : ∀ t : Fin grid0.N, _)

/-- The whole-array windows sit at block (0, 0) at every point. -/
theorem idx_whole : ∀ t : Fin cfg0.N, ∀ a : Fin 2, win0_3.index t a = 0 ∧ win0_4.index t a = 0 ∧ win0_5.index t a = 0 ∧ win0_6.index t a = 0 ∧ win0_7.index t a = 0 ∧ win0_8.index t a = 0 ∧ win0_9.index t a = 0 ∧ win0_10.index t a = 0 ∧ win0_11.index t a = 0 ∧ win0_12.index t a = 0 :=
  (by decide +kernel : ∀ t : Fin grid0.N, ∀ a : Fin 2, _)

/-- The array row that row p of a block at point t is. -/
def rowOf (t : Fin cfg0.N) (p : Fin 4000) : Fin 100000 :=
  ⟨t.val * 4000 + p.val, by have ht : t.val < 25 := t.isLt; have := p.isLt; omega⟩

/-! ## Where a block's entry lies in its array -/

theorem emb_0 (t : Fin cfg0.N) (p : Fin 4000) (c' : Fin 64) :
    ((cfg0.win 0).blk t).view.emb (ix2 p c') = ix2 (rowOf t p) c' := by
  obtain ⟨e00, e01, e10, e11, e20, e21, e30, e31⟩ := idx_rows t
  funext a; apply Fin.ext
  match a with
  | ⟨0, _⟩ => show win0_0.index t (0 : Fin 2) * 4000 + 1 * p.val = t.val * 4000 + p.val; rw [e00]; omega
  | ⟨1, _⟩ => show win0_0.index t (1 : Fin 2) * 64 + 1 * c'.val = c'.val; rw [e01]; omega
theorem emb_1 (t : Fin cfg0.N) (p : Fin 4000) (c' : Fin 64) :
    ((cfg0.win 1).blk t).view.emb (ix2 p c') = ix2 (rowOf t p) c' := by
  obtain ⟨e00, e01, e10, e11, e20, e21, e30, e31⟩ := idx_rows t
  funext a; apply Fin.ext
  match a with
  | ⟨0, _⟩ => show win0_1.index t (0 : Fin 2) * 4000 + 1 * p.val = t.val * 4000 + p.val; rw [e10]; omega
  | ⟨1, _⟩ => show win0_1.index t (1 : Fin 2) * 64 + 1 * c'.val = c'.val; rw [e11]; omega
theorem emb_2 (t : Fin cfg0.N) (p : Fin 4000) (c' : Fin 64) :
    ((cfg0.win 2).blk t).view.emb (ix2 p c') = ix2 (rowOf t p) c' := by
  obtain ⟨e00, e01, e10, e11, e20, e21, e30, e31⟩ := idx_rows t
  funext a; apply Fin.ext
  match a with
  | ⟨0, _⟩ => show win0_2.index t (0 : Fin 2) * 4000 + 1 * p.val = t.val * 4000 + p.val; rw [e20]; omega
  | ⟨1, _⟩ => show win0_2.index t (1 : Fin 2) * 64 + 1 * c'.val = c'.val; rw [e21]; omega
theorem emb_13 (t : Fin cfg0.N) (p : Fin 4000) (q : Fin 40) :
    ((cfg0.win 13).blk t).view.emb (ix2 p q) = ix2 (rowOf t p) q := by
  obtain ⟨e00, e01, e10, e11, e20, e21, e30, e31⟩ := idx_rows t
  funext a; apply Fin.ext
  match a with
  | ⟨0, _⟩ => show win0_13.index t (0 : Fin 2) * 4000 + 1 * p.val = t.val * 4000 + p.val; rw [e30]; omega
  | ⟨1, _⟩ => show win0_13.index t (1 : Fin 2) * 40 + 1 * q.val = q.val; rw [e31]; omega
theorem emb_3 (t : Fin cfg0.N) (y : S64x32.Idx) : ((cfg0.win 3).blk t).view.emb y = y := by
  funext a; apply Fin.ext
  match a with
  | ⟨0, _⟩ =>
    have h := idx_whole t (0 : Fin 2)
    show win0_3.index t (0 : Fin 2) * 64 + 1 * (y 0).val = (y 0).val
    rw [h.1]; omega
  | ⟨1, _⟩ =>
    have h := idx_whole t (1 : Fin 2)
    show win0_3.index t (1 : Fin 2) * 32 + 1 * (y 1).val = (y 1).val
    rw [h.1]; omega
theorem emb_4 (t : Fin cfg0.N) (y : S1x32.Idx) : ((cfg0.win 4).blk t).view.emb y = y := by
  funext a; apply Fin.ext
  match a with
  | ⟨0, _⟩ =>
    have h := idx_whole t (0 : Fin 2)
    show win0_4.index t (0 : Fin 2) * 1 + 1 * (y 0).val = (y 0).val
    rw [h.2.1]; omega
  | ⟨1, _⟩ =>
    have h := idx_whole t (1 : Fin 2)
    show win0_4.index t (1 : Fin 2) * 32 + 1 * (y 1).val = (y 1).val
    rw [h.2.1]; omega
theorem emb_5 (t : Fin cfg0.N) (y : S64x32.Idx) : ((cfg0.win 5).blk t).view.emb y = y := by
  funext a; apply Fin.ext
  match a with
  | ⟨0, _⟩ =>
    have h := idx_whole t (0 : Fin 2)
    show win0_5.index t (0 : Fin 2) * 64 + 1 * (y 0).val = (y 0).val
    rw [h.2.2.1]; omega
  | ⟨1, _⟩ =>
    have h := idx_whole t (1 : Fin 2)
    show win0_5.index t (1 : Fin 2) * 32 + 1 * (y 1).val = (y 1).val
    rw [h.2.2.1]; omega
theorem emb_6 (t : Fin cfg0.N) (y : S1x32.Idx) : ((cfg0.win 6).blk t).view.emb y = y := by
  funext a; apply Fin.ext
  match a with
  | ⟨0, _⟩ =>
    have h := idx_whole t (0 : Fin 2)
    show win0_6.index t (0 : Fin 2) * 1 + 1 * (y 0).val = (y 0).val
    rw [h.2.2.2.1]; omega
  | ⟨1, _⟩ =>
    have h := idx_whole t (1 : Fin 2)
    show win0_6.index t (1 : Fin 2) * 32 + 1 * (y 1).val = (y 1).val
    rw [h.2.2.2.1]; omega
theorem emb_7 (t : Fin cfg0.N) (y : S64x32.Idx) : ((cfg0.win 7).blk t).view.emb y = y := by
  funext a; apply Fin.ext
  match a with
  | ⟨0, _⟩ =>
    have h := idx_whole t (0 : Fin 2)
    show win0_7.index t (0 : Fin 2) * 64 + 1 * (y 0).val = (y 0).val
    rw [h.2.2.2.2.1]; omega
  | ⟨1, _⟩ =>
    have h := idx_whole t (1 : Fin 2)
    show win0_7.index t (1 : Fin 2) * 32 + 1 * (y 1).val = (y 1).val
    rw [h.2.2.2.2.1]; omega
theorem emb_8 (t : Fin cfg0.N) (y : S1x32.Idx) : ((cfg0.win 8).blk t).view.emb y = y := by
  funext a; apply Fin.ext
  match a with
  | ⟨0, _⟩ =>
    have h := idx_whole t (0 : Fin 2)
    show win0_8.index t (0 : Fin 2) * 1 + 1 * (y 0).val = (y 0).val
    rw [h.2.2.2.2.2.1]; omega
  | ⟨1, _⟩ =>
    have h := idx_whole t (1 : Fin 2)
    show win0_8.index t (1 : Fin 2) * 32 + 1 * (y 1).val = (y 1).val
    rw [h.2.2.2.2.2.1]; omega
theorem emb_9 (t : Fin cfg0.N) (y : S32x40.Idx) : ((cfg0.win 9).blk t).view.emb y = y := by
  funext a; apply Fin.ext
  match a with
  | ⟨0, _⟩ =>
    have h := idx_whole t (0 : Fin 2)
    show win0_9.index t (0 : Fin 2) * 32 + 1 * (y 0).val = (y 0).val
    rw [h.2.2.2.2.2.2.1]; omega
  | ⟨1, _⟩ =>
    have h := idx_whole t (1 : Fin 2)
    show win0_9.index t (1 : Fin 2) * 40 + 1 * (y 1).val = (y 1).val
    rw [h.2.2.2.2.2.2.1]; omega
theorem emb_10 (t : Fin cfg0.N) (y : S32x40.Idx) : ((cfg0.win 10).blk t).view.emb y = y := by
  funext a; apply Fin.ext
  match a with
  | ⟨0, _⟩ =>
    have h := idx_whole t (0 : Fin 2)
    show win0_10.index t (0 : Fin 2) * 32 + 1 * (y 0).val = (y 0).val
    rw [h.2.2.2.2.2.2.2.1]; omega
  | ⟨1, _⟩ =>
    have h := idx_whole t (1 : Fin 2)
    show win0_10.index t (1 : Fin 2) * 40 + 1 * (y 1).val = (y 1).val
    rw [h.2.2.2.2.2.2.2.1]; omega
theorem emb_11 (t : Fin cfg0.N) (y : S32x40.Idx) : ((cfg0.win 11).blk t).view.emb y = y := by
  funext a; apply Fin.ext
  match a with
  | ⟨0, _⟩ =>
    have h := idx_whole t (0 : Fin 2)
    show win0_11.index t (0 : Fin 2) * 32 + 1 * (y 0).val = (y 0).val
    rw [h.2.2.2.2.2.2.2.2.1]; omega
  | ⟨1, _⟩ =>
    have h := idx_whole t (1 : Fin 2)
    show win0_11.index t (1 : Fin 2) * 40 + 1 * (y 1).val = (y 1).val
    rw [h.2.2.2.2.2.2.2.2.1]; omega
theorem emb_12 (t : Fin cfg0.N) (y : S1x40.Idx) : ((cfg0.win 12).blk t).view.emb y = y := by
  funext a; apply Fin.ext
  match a with
  | ⟨0, _⟩ =>
    have h := idx_whole t (0 : Fin 2)
    show win0_12.index t (0 : Fin 2) * 1 + 1 * (y 0).val = (y 0).val
    rw [h.2.2.2.2.2.2.2.2.2]; omega
  | ⟨1, _⟩ =>
    have h := idx_whole t (1 : Fin 2)
    show win0_12.index t (1 : Fin 2) * 40 + 1 * (y 1).val = (y 1).val
    rw [h.2.2.2.2.2.2.2.2.2]; omega

/-! ## What each input block holds -/

/-! A window's block read out of ANY array: the array stays a variable here, so that nothing of a host-computed array is ever opened. -/

theorem read_0 (A : S100000x64.Idx → EReal) (t : Fin cfg0.N) (p : Fin 4000) (c' : Fin 64) :
    ((cfg0.win 0).blk t).view.read (Elt Ideal) A (ix2 p c') = A (ix2 (rowOf t p) c') := by
  show A (((cfg0.win 0).blk t).view.emb (ix2 p c')) = _
  rw [emb_0]
theorem read_1 (A : S100000x64.Idx → EReal) (t : Fin cfg0.N) (p : Fin 4000) (c' : Fin 64) :
    ((cfg0.win 1).blk t).view.read (Elt Ideal) A (ix2 p c') = A (ix2 (rowOf t p) c') := by
  show A (((cfg0.win 1).blk t).view.emb (ix2 p c')) = _
  rw [emb_1]
theorem read_2 (A : S100000x64.Idx → EReal) (t : Fin cfg0.N) (p : Fin 4000) (c' : Fin 64) :
    ((cfg0.win 2).blk t).view.read (Elt Ideal) A (ix2 p c') = A (ix2 (rowOf t p) c') := by
  show A (((cfg0.win 2).blk t).view.emb (ix2 p c')) = _
  rw [emb_2]
theorem read_3 (A : S64x32.Idx → EReal) (t : Fin cfg0.N) (y : S64x32.Idx) :
    ((cfg0.win 3).blk t).view.read (Elt Ideal) A y = A y := by
  show A (((cfg0.win 3).blk t).view.emb y) = _
  rw [emb_3]
theorem read_4 (A : S1x32.Idx → EReal) (t : Fin cfg0.N) (y : S1x32.Idx) :
    ((cfg0.win 4).blk t).view.read (Elt Ideal) A y = A y := by
  show A (((cfg0.win 4).blk t).view.emb y) = _
  rw [emb_4]
theorem read_5 (A : S64x32.Idx → EReal) (t : Fin cfg0.N) (y : S64x32.Idx) :
    ((cfg0.win 5).blk t).view.read (Elt Ideal) A y = A y := by
  show A (((cfg0.win 5).blk t).view.emb y) = _
  rw [emb_5]
theorem read_6 (A : S1x32.Idx → EReal) (t : Fin cfg0.N) (y : S1x32.Idx) :
    ((cfg0.win 6).blk t).view.read (Elt Ideal) A y = A y := by
  show A (((cfg0.win 6).blk t).view.emb y) = _
  rw [emb_6]
theorem read_7 (A : S64x32.Idx → EReal) (t : Fin cfg0.N) (y : S64x32.Idx) :
    ((cfg0.win 7).blk t).view.read (Elt Ideal) A y = A y := by
  show A (((cfg0.win 7).blk t).view.emb y) = _
  rw [emb_7]
theorem read_8 (A : S1x32.Idx → EReal) (t : Fin cfg0.N) (y : S1x32.Idx) :
    ((cfg0.win 8).blk t).view.read (Elt Ideal) A y = A y := by
  show A (((cfg0.win 8).blk t).view.emb y) = _
  rw [emb_8]
theorem read_9 (A : S32x40.Idx → EReal) (t : Fin cfg0.N) (y : S32x40.Idx) :
    ((cfg0.win 9).blk t).view.read (Elt Ideal) A y = A y := by
  show A (((cfg0.win 9).blk t).view.emb y) = _
  rw [emb_9]
theorem read_10 (A : S32x40.Idx → EReal) (t : Fin cfg0.N) (y : S32x40.Idx) :
    ((cfg0.win 10).blk t).view.read (Elt Ideal) A y = A y := by
  show A (((cfg0.win 10).blk t).view.emb y) = _
  rw [emb_10]
theorem read_11 (A : S32x40.Idx → EReal) (t : Fin cfg0.N) (y : S32x40.Idx) :
    ((cfg0.win 11).blk t).view.read (Elt Ideal) A y = A y := by
  show A (((cfg0.win 11).blk t).view.emb y) = _
  rw [emb_11]
theorem read_12 (A : S1x40.Idx → EReal) (t : Fin cfg0.N) (y : S1x40.Idx) :
    ((cfg0.win 12).blk t).view.read (Elt Ideal) A y = A y := by
  show A (((cfg0.win 12).blk t).view.emb y) = _
  rw [emb_12]

/-! Each input block is its window's array, as the region finds it, read through the block. -/

theorem iblk_0 (c : Dev nD) (t : Fin cfg0.N) : iblk m c 0 t = ((cfg0.win 0).blk t).view.read (Elt Ideal) (V m c main_arg0) := rfl
theorem iblk_1 (c : Dev nD) (t : Fin cfg0.N) : iblk m c 1 t = ((cfg0.win 1).blk t).view.read (Elt Ideal) (V m c main_v42) := rfl
theorem iblk_2 (c : Dev nD) (t : Fin cfg0.N) : iblk m c 2 t = ((cfg0.win 2).blk t).view.read (Elt Ideal) (V m c main_v55) := rfl
theorem iblk_3 (c : Dev nD) (t : Fin cfg0.N) : iblk m c 3 t = ((cfg0.win 3).blk t).view.read (Elt Ideal) (V m c main_arg2) := rfl
theorem iblk_4 (c : Dev nD) (t : Fin cfg0.N) : iblk m c 4 t = ((cfg0.win 4).blk t).view.read (Elt Ideal) (V m c main_v56) := rfl
theorem iblk_5 (c : Dev nD) (t : Fin cfg0.N) : iblk m c 5 t = ((cfg0.win 5).blk t).view.read (Elt Ideal) (V m c main_arg4) := rfl
theorem iblk_6 (c : Dev nD) (t : Fin cfg0.N) : iblk m c 6 t = ((cfg0.win 6).blk t).view.read (Elt Ideal) (V m c main_v57) := rfl
theorem iblk_7 (c : Dev nD) (t : Fin cfg0.N) : iblk m c 7 t = ((cfg0.win 7).blk t).view.read (Elt Ideal) (V m c main_arg6) := rfl
theorem iblk_8 (c : Dev nD) (t : Fin cfg0.N) : iblk m c 8 t = ((cfg0.win 8).blk t).view.read (Elt Ideal) (V m c main_v58) := rfl
theorem iblk_9 (c : Dev nD) (t : Fin cfg0.N) : iblk m c 9 t = ((cfg0.win 9).blk t).view.read (Elt Ideal) (V m c main_v60) := rfl
theorem iblk_10 (c : Dev nD) (t : Fin cfg0.N) : iblk m c 10 t = ((cfg0.win 10).blk t).view.read (Elt Ideal) (V m c main_v61) := rfl
theorem iblk_11 (c : Dev nD) (t : Fin cfg0.N) : iblk m c 11 t = ((cfg0.win 11).blk t).view.read (Elt Ideal) (V m c main_v62) := rfl
theorem iblk_12 (c : Dev nD) (t : Fin cfg0.N) : iblk m c 12 t = ((cfg0.win 12).blk t).view.read (Elt Ideal) (V m c main_v59) := rfl

theorem blk_x (c : Dev nD) (t : Fin cfg0.N) (p : Fin 4000) (c' : Fin 64) :
    iblk m c 0 t (ix2 p c') = ((m ((c : Thread nD τ).loc main_arg0)) : S100000x64.Idx → EReal) (ix2 (rowOf t p) c') := by
  rw [iblk_0, V_main_arg0]
  exact read_0 _ t p c'
theorem blk_h2 (c : Dev nD) (t : Fin cfg0.N) (p : Fin 4000) (c' : Fin 64) :
    iblk m c 1 t (ix2 p c') = Cert.ReferenceIdeal.ReadP.val_main_v42 (F := Ideal) (m ((c : Thread nD τ).loc main_arg0)) (m ((c : Thread nD τ).loc main_arg1)) (ix2 (rowOf t p) c') := by
  rw [iblk_1, V_h2]
  exact read_1 _ t p c'
theorem blk_h3 (c : Dev nD) (t : Fin cfg0.N) (p : Fin 4000) (c' : Fin 64) :
    iblk m c 2 t (ix2 p c') = Cert.ReferenceIdeal.ReadP.val_main_v55 (F := Ideal) (m ((c : Thread nD τ).loc main_arg0)) (m ((c : Thread nD τ).loc main_arg1)) (ix2 (rowOf t p) c') := by
  rw [iblk_2, V_h3]
  exact read_2 _ t p c'
theorem blk_w1 (c : Dev nD) (t : Fin cfg0.N) (c' : Fin 64) (k : Fin 32) :
    iblk m c 3 t (ix2 c' k) = ((m ((c : Thread nD τ).loc main_arg2)) : S64x32.Idx → EReal) (ix2 c' k) := by
  rw [iblk_3, V_main_arg2]
  exact read_3 _ t (ix2 c' k)
theorem blk_w2 (c : Dev nD) (t : Fin cfg0.N) (c' : Fin 64) (k : Fin 32) :
    iblk m c 5 t (ix2 c' k) = ((m ((c : Thread nD τ).loc main_arg4)) : S64x32.Idx → EReal) (ix2 c' k) := by
  rw [iblk_5, V_main_arg4]
  exact read_5 _ t (ix2 c' k)
theorem blk_w3 (c : Dev nD) (t : Fin cfg0.N) (c' : Fin 64) (k : Fin 32) :
    iblk m c 7 t (ix2 c' k) = ((m ((c : Thread nD τ).loc main_arg6)) : S64x32.Idx → EReal) (ix2 c' k) := by
  rw [iblk_7, V_main_arg6]
  exact read_7 _ t (ix2 c' k)
theorem blk_b1 (c : Dev nD) (t : Fin cfg0.N) (k : Fin 32) :
    iblk m c 4 t (ix2 (0 : Fin 1) k) = ((m ((c : Thread nD τ).loc main_arg3)) : S32.Idx → EReal) (ix1 k) := by
  rw [iblk_4, V_b1]
  exact (read_4 _ t (ix2 (0 : Fin 1) k)).trans (Cert.LibRowOps.rowShapeCast_apply _ shapeCasts_S32_S1x32 k)
theorem blk_b2 (c : Dev nD) (t : Fin cfg0.N) (k : Fin 32) :
    iblk m c 6 t (ix2 (0 : Fin 1) k) = ((m ((c : Thread nD τ).loc main_arg5)) : S32.Idx → EReal) (ix1 k) := by
  rw [iblk_6, V_b2]
  exact (read_6 _ t (ix2 (0 : Fin 1) k)).trans (Cert.LibRowOps.rowShapeCast_apply _ shapeCasts_S32_S1x32 k)
theorem blk_b3 (c : Dev nD) (t : Fin cfg0.N) (k : Fin 32) :
    iblk m c 8 t (ix2 (0 : Fin 1) k) = ((m ((c : Thread nD τ).loc main_arg7)) : S32.Idx → EReal) (ix1 k) := by
  rw [iblk_8, V_b3]
  exact (read_8 _ t (ix2 (0 : Fin 1) k)).trans (Cert.LibRowOps.rowShapeCast_apply _ shapeCasts_S32_S1x32 k)
theorem blk_β (c : Dev nD) (t : Fin cfg0.N) (j : Fin 40) :
    iblk m c 12 t (ix2 (0 : Fin 1) j) = ((m ((c : Thread nD τ).loc main_arg9)) : S40.Idx → EReal) (ix1 j) := by
  rw [iblk_12, V_β]
  exact (read_12 _ t (ix2 (0 : Fin 1) j)).trans (Cert.LibRowOps.rowShapeCast_apply _ shapeCasts_S40_S1x40 j)
theorem blk_a1 (c : Dev nD) (t : Fin cfg0.N) (k : Fin 32) (j : Fin 40) :
    iblk m c 9 t (ix2 k j) = ((m ((c : Thread nD τ).loc main_arg8)) : S96x40.Idx → EReal) (ix2 (lo k) j) := by
  rw [iblk_9, V_A1]
  exact (read_9 _ t (ix2 k j)).trans (extractStridedSlice_apply ![0, 0] _ slices_S96x40_S32x40_0_0 (ix2 k j) (ix2 (lo k) j) (fun a => by
    match a with
    | ⟨0, _⟩ => exact (Nat.zero_add k.val).symm
    | ⟨1, _⟩ => show j.val = 0 + j.val; omega))
theorem blk_a2 (c : Dev nD) (t : Fin cfg0.N) (k : Fin 32) (j : Fin 40) :
    iblk m c 10 t (ix2 k j) = ((m ((c : Thread nD τ).loc main_arg8)) : S96x40.Idx → EReal) (ix2 (mid k) j) := by
  rw [iblk_10, V_A2]
  exact (read_10 _ t (ix2 k j)).trans (extractStridedSlice_apply ![32, 0] _ slices_S96x40_S32x40_32_0 (ix2 k j) (ix2 (mid k) j) (fun a => by
    match a with
    | ⟨0, _⟩ => rfl
    | ⟨1, _⟩ => show j.val = 0 + j.val; omega))
theorem blk_a3 (c : Dev nD) (t : Fin cfg0.N) (k : Fin 32) (j : Fin 40) :
    iblk m c 11 t (ix2 k j) = ((m ((c : Thread nD τ).loc main_arg8)) : S96x40.Idx → EReal) (ix2 (hi k) j) := by
  rw [iblk_11, V_A3]
  exact (read_11 _ t (ix2 k j)).trans (extractStridedSlice_apply ![64, 0] _ slices_S96x40_S32x40_64_0 (ix2 k j) (ix2 (hi k) j) (fun a => by
    match a with
    | ⟨0, _⟩ => rfl
    | ⟨1, _⟩ => show j.val = 0 + j.val; omega))

/-! ## The result array -/

/-- The result array as one function of the arguments: at (r, j), the row function of row r of the features and of their two
    propagated versions (the reference's own terms), at j. -/
abbrev GA (c : Dev nD) : S100000x40.Idx → EReal :=
  G (m ((c : Thread nD τ).loc main_arg0)) (Cert.ReferenceIdeal.ReadP.val_main_v42 (F := Ideal) (m ((c : Thread nD τ).loc main_arg0)) (m ((c : Thread nD τ).loc main_arg1)))
    (Cert.ReferenceIdeal.ReadP.val_main_v55 (F := Ideal) (m ((c : Thread nD τ).loc main_arg0)) (m ((c : Thread nD τ).loc main_arg1)))
    (m ((c : Thread nD τ).loc main_arg2)) (m ((c : Thread nD τ).loc main_arg4)) (m ((c : Thread nD τ).loc main_arg6)) (m ((c : Thread nD τ).loc main_arg3)) (m ((c : Thread nD τ).loc main_arg5)) (m ((c : Thread nD τ).loc main_arg7))
    (m ((c : Thread nD τ).loc main_arg8)) (m ((c : Thread nD τ).loc main_arg9))

/-- WHAT POINT t WRITES BACK is block t of the result array. -/
theorem flushed_eq (c : Dev nD) (t : Fin cfg0.N) :
    (dats m 0 c).flushed 13 t = ((cfg0.win 13).blk t).view.read (Elt Ideal) (GA m c) := by
  rw [Cert.KernelIdeal.Value.flushed13]
  unfold out0_13
  rw [View.canon_unit_zero hz]
  simp only [View.ld_unit_zero (S := S4000x64) hz, View.ld_unit_zero (S := S64x32) hz, View.ld_unit_zero (S := S1x32) hz,
    View.ld_unit_zero (S := S32x40) hz, View.ld_unit_zero (S := S1x40) hz]
  funext y
  obtain ⟨p, q, rfl⟩ : ∃ (p : Fin 4000) (q : Fin 40), y = ix2 p q := ⟨y 0, y 1, eq_ix2 y⟩
  show k0_pay1 (F := Ideal) (k0_pay2 (iblk m c 0 t) (iblk m c 3 t) (iblk m c 4 t)) (k0_pay3 (iblk m c 1 t) (iblk m c 5 t) (iblk m c 6 t))
      (k0_pay4 (iblk m c 2 t) (iblk m c 7 t) (iblk m c 8 t)) (iblk m c 9 t) (iblk m c 10 t) (iblk m c 11 t) (iblk m c 12 t) (ix2 p q)
    = GA m c (((cfg0.win 13).blk t).view.emb (ix2 p q))
  rw [emb_13]
  exact point_value (m ((c : Thread nD τ).loc main_arg0)) (Cert.ReferenceIdeal.ReadP.val_main_v42 (F := Ideal) (m ((c : Thread nD τ).loc main_arg0)) (m ((c : Thread nD τ).loc main_arg1)))
    (Cert.ReferenceIdeal.ReadP.val_main_v55 (F := Ideal) (m ((c : Thread nD τ).loc main_arg0)) (m ((c : Thread nD τ).loc main_arg1)))
    (m ((c : Thread nD τ).loc main_arg2)) (m ((c : Thread nD τ).loc main_arg4)) (m ((c : Thread nD τ).loc main_arg6)) (m ((c : Thread nD τ).loc main_arg3)) (m ((c : Thread nD τ).loc main_arg5)) (m ((c : Thread nD τ).loc main_arg7))
    (m ((c : Thread nD τ).loc main_arg8)) (m ((c : Thread nD τ).loc main_arg9))
    (iblk m c 0 t) (iblk m c 1 t) (iblk m c 2 t) (iblk m c 3 t) (iblk m c 5 t) (iblk m c 7 t) (iblk m c 4 t) (iblk m c 6 t) (iblk m c 8 t)
    (iblk m c 9 t) (iblk m c 10 t) (iblk m c 11 t) (iblk m c 12 t) p q (rowOf t p)
    (blk_x m c t p) (blk_h2 m c t p) (blk_h3 m c t p) (blk_w1 m c t) (blk_w2 m c t) (blk_w3 m c t)
    (blk_b1 m c t) (blk_b2 m c t) (blk_b3 m c t) (blk_a1 m c t) (blk_a2 m c t) (blk_a3 m c t) (blk_β m c t)

/-- An index of the result array is in point t's block iff each coordinate is in the block's range on its axis. -/
theorem mem_blk (t : Fin cfg0.N) (i : S100000x40.Idx) :
    i ∈ ((cfg0.win 13).blk t).view.set ↔ ∀ a : Fin 2, win0_13.index t a * S4000x40.size a ≤ (i a).val
      ∧ (i a).val < win0_13.index t a * S4000x40.size a + S4000x40.size a := by
  show i ∈ ((View.whole main_v63).slice (win0_13.rect t)).set ↔ _
  rw [View.set_slice_whole, Rect.mem_set_unit]
  exact Iff.rfl

/-- Every row lies in some point's block: row r in block r / 4000. -/
theorem cover (i : S100000x40.Idx) : ∃ t : Fin cfg0.N, (cfg0.win 13).flush t = true ∧ i ∈ ((cfg0.win 13).blk t).view.set := by
  have hi0 : (i 0).val < 100000 := (i 0).isLt
  have hi1 : (i 1).val < 40 := (i 1).isLt
  obtain ⟨t, ht⟩ : ∃ t : Fin cfg0.N, t.val = (i 0).val / 4000 := ⟨⟨(i 0).val / 4000, by show (i 0).val / 4000 < 25; omega⟩, rfl⟩
  obtain ⟨e00, e01, e10, e11, e20, e21, e30, e31⟩ := idx_rows t
  refine ⟨t, flush0_13 t, ?_⟩
  rw [mem_blk]
  intro a
  match a with
  | ⟨0, _⟩ =>
    show win0_13.index t (0 : Fin 2) * 4000 ≤ (i 0).val ∧ (i 0).val < win0_13.index t (0 : Fin 2) * 4000 + 4000
    rw [e30]; omega
  | ⟨1, _⟩ =>
    show win0_13.index t (1 : Fin 2) * 40 ≤ (i 1).val ∧ (i 1).val < win0_13.index t (1 : Fin 2) * 40 + 40
    rw [e31]; omega

/-- THE RESULT ARRAY after the run. -/
theorem final (c : Dev nD) : (dats m 0 c).arrAt 13 cfg0.N = GA m c :=
  (dats m 0 c).arrAt_eq_of_cover 13 (GA m c) (fun t _ => flushed_eq m c t) cover

/-- The kernel's run: the result array is the function GA of the arguments, which end unchanged. -/
theorem run : θ_run defs (onTc (τ := τ) (main (F := Ideal))) ⟨m, fun _ => 0, ρ⟩ fun r => ∀ c : Dev nD,
      r.2.mem ((c : Thread nD τ).loc main_v63) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.ArrayValue

end
-- ==== Proof.RefRow.lean ====
/-
  The reference's result, entry by entry, is the row function of its arrays.

  The reference works on all 100000 rows at once: three hidden layers relu(h · W + b) with h the feature array and its two
  propagated versions (two long host terms of the features and the edge list, never opened here), the three hidden arrays laid side
  by side into 96 columns, one product with the 96 × 40 output weights plus the bias, and log-softmax along the 40 columns. Read at
  (r, j): the product over 96 positions splits into its three stretches (RowNet.sum_three), and on stretch s the side-by-side
  array is hidden array s; the row maximum is a fold over the 40 logits of row r, and taking the maximum with −∞ once more, as the
  reference does, changes nothing; the row sum starts from the zero word, which adds nothing.
-/
import proofs.«122745_j4320737100473_1_alg».proof.Proof.RefRead
import proofs.«122745_j4320737100473_1_alg».proof.Proof.RowNet
import proofs.«122745_j4320737100473_1_alg».proof.Proof.LibRowOps

noncomputable section

namespace Cert.ReferenceIdeal.RowValue

open Cert.ReferenceIdeal Cert.ReferenceIdeal.Gen Cert.ReferenceIdeal.ReadP Idealize.ShloMosaic Idealize.ShloMosaic.ValueIdx Cert.RowNet

/-- Two index functions of rank 2 (rank 1) with the same coordinates are equal. -/
local macro "idx2" : tactic => `(tactic| exact funext fun a => Fin.ext (by match a with | ⟨0, _⟩ => rfl | ⟨1, _⟩ => rfl))
local macro "idx1" : tactic => `(tactic| exact funext fun a => Fin.ext (by match a with | ⟨0, _⟩ => rfl))

variable (x0 : (⟨S100000x64, .f32⟩ : BufTy).Contents (Elt Ideal)) (x1 : (⟨S2x1200000, .i32⟩ : BufTy).Contents (Elt Ideal))
  (x2 : (⟨S64x32, .f32⟩ : BufTy).Contents (Elt Ideal)) (x3 : (⟨S32, .f32⟩ : BufTy).Contents (Elt Ideal))
  (x4 : (⟨S64x32, .f32⟩ : BufTy).Contents (Elt Ideal)) (x5 : (⟨S32, .f32⟩ : BufTy).Contents (Elt Ideal))
  (x6 : (⟨S64x32, .f32⟩ : BufTy).Contents (Elt Ideal)) (x7 : (⟨S32, .f32⟩ : BufTy).Contents (Elt Ideal))
  (x8 : (⟨S96x40, .f32⟩ : BufTy).Contents (Elt Ideal)) (x9 : (⟨S40, .f32⟩ : BufTy).Contents (Elt Ideal))

/-! ## The three hidden arrays -/

/-- The first hidden array at (r, k): hidden unit k of row r of the features. -/
theorem hid1 (r : Fin 100000) (k : Fin 32) :
    val_main_v60 (F := Ideal) x0 x2 x3 (ix2 r k) = hid (fun c => x0 (ix2 r c)) (fun c k => x2 (ix2 c k)) (fun k => x3 (ix1 k)) k := by
  rw [val_main_v60_apply, val_main_v59_apply, val_main_v56_apply, val_main_v58_apply, val_main_v57_apply, val_main_call1_v0_apply,
    val_main_call1_cst_apply]
  show max (_ + _) (Ideal.ofBits .f32 0x00000000#32) = max (_ + _) 0
  rw [Ideal.ofBits_zero_f32]
  refine congrArg (max · 0) (congrArg₂ (· + ·) (Finset.sum_congr rfl fun c _ => congrArg₂ (· * ·) (congrArg x0 ?_) (congrArg x2 ?_)) (congrArg x3 ?_))
  · idx2
  · idx2
  · idx1

/-- The second, of row r of the once-propagated features. -/
theorem hid2 (r : Fin 100000) (k : Fin 32) :
    val_main_v65 (F := Ideal) x0 x1 x4 x5 (ix2 r k)
      = hid (fun c => val_main_v42 (F := Ideal) x0 x1 (ix2 r c)) (fun c k => x4 (ix2 c k)) (fun k => x5 (ix1 k)) k := by
  rw [val_main_v65_apply, val_main_v64_apply, val_main_v61_apply, val_main_v63_apply, val_main_v62_apply, val_main_call2_v0_apply,
    val_main_call2_cst_apply]
  show max (_ + _) (Ideal.ofBits .f32 0x00000000#32) = max (_ + _) 0
  rw [Ideal.ofBits_zero_f32]
  refine congrArg (max · 0) (congrArg₂ (· + ·) (Finset.sum_congr rfl fun c _ => congrArg₂ (· * ·) (congrArg (val_main_v42 (F := Ideal) x0 x1) ?_) (congrArg x4 ?_)) (congrArg x5 ?_))
  · idx2
  · idx2
  · idx1

/-- The third, of row r of the twice-propagated features. -/
theorem hid3 (r : Fin 100000) (k : Fin 32) :
    val_main_v70 (F := Ideal) x0 x1 x6 x7 (ix2 r k)
      = hid (fun c => val_main_v55 (F := Ideal) x0 x1 (ix2 r c)) (fun c k => x6 (ix2 c k)) (fun k => x7 (ix1 k)) k := by
  rw [val_main_v70_apply, val_main_v69_apply, val_main_v66_apply, val_main_v68_apply, val_main_v67_apply, val_main_call3_v0_apply,
    val_main_call3_cst_apply]
  show max (_ + _) (Ideal.ofBits .f32 0x00000000#32) = max (_ + _) 0
  rw [Ideal.ofBits_zero_f32]
  refine congrArg (max · 0) (congrArg₂ (· + ·) (Finset.sum_congr rfl fun c _ => congrArg₂ (· * ·) (congrArg (val_main_v55 (F := Ideal) x0 x1) ?_) (congrArg x6 ?_)) (congrArg x7 ?_))
  · idx2
  · idx2
  · idx1

/-! ## The three hidden arrays side by side -/

/-- Column lo k of the 96-column array is column k of the first hidden array. -/
theorem cat_lo (r : Fin 100000) (j : Fin 40) (k : Fin 32) :
    val_main_v71 (F := Ideal) x0 x1 x2 x3 x4 x5 x6 x7 (lidx_main_v72 (ix2 r j) (lo k)) = val_main_v60 (F := Ideal) x0 x2 x3 (ix2 r k) := by
  unfold val_main_v71
  refine concatenate_apply_piece (t := S100000x96) 1 _ _ _ 0 ?hk S100000x32 (val_main_v60 (F := Ideal) x0 x2 x3) ?hxk ?hr 0 ?hpre (ix2 r k) ?hi ?ha
  case hk => (show _ < 3); omega
  case hxk => rfl
  case hr => rfl
  case hpre => rfl
  case hi =>
    intro b hb
    match b with
    | ⟨0, _⟩ => rfl
    | ⟨1, _⟩ => exact absurd rfl hb
  case ha =>
    show 0 + k.val = (lo k).val
    unfold lo
    simp

/-- Column mid k is column k of the second. -/
theorem cat_mid (r : Fin 100000) (j : Fin 40) (k : Fin 32) :
    val_main_v71 (F := Ideal) x0 x1 x2 x3 x4 x5 x6 x7 (lidx_main_v72 (ix2 r j) (mid k)) = val_main_v65 (F := Ideal) x0 x1 x4 x5 (ix2 r k) := by
  unfold val_main_v71
  refine concatenate_apply_piece (t := S100000x96) 1 _ _ _ 1 ?hk S100000x32 (val_main_v65 (F := Ideal) x0 x1 x4 x5) ?hxk ?hr 32 ?hpre (ix2 r k) ?hi ?ha
  case hk => (show _ < 3); omega
  case hxk => rfl
  case hr => rfl
  case hpre => rfl
  case hi =>
    intro b hb
    match b with
    | ⟨0, _⟩ => rfl
    | ⟨1, _⟩ => exact absurd rfl hb
  case ha =>
    show 32 + k.val = (mid k).val
    unfold mid
    simp

/-- Column hi k is column k of the third. -/
theorem cat_hi (r : Fin 100000) (j : Fin 40) (k : Fin 32) :
    val_main_v71 (F := Ideal) x0 x1 x2 x3 x4 x5 x6 x7 (lidx_main_v72 (ix2 r j) (hi k)) = val_main_v70 (F := Ideal) x0 x1 x6 x7 (ix2 r k) := by
  unfold val_main_v71
  refine concatenate_apply_piece (t := S100000x96) 1 _ _ _ 2 ?hk S100000x32 (val_main_v70 (F := Ideal) x0 x1 x6 x7) ?hxk ?hr 64 ?hpre (ix2 r k) ?hi ?ha
  case hk => (show _ < 3); omega
  case hxk => rfl
  case hr => rfl
  case hpre => rfl
  case hi =>
    intro b hb
    match b with
    | ⟨0, _⟩ => rfl
    | ⟨1, _⟩ => exact absurd rfl hb
  case ha =>
    show 64 + k.val = (hi k).val
    unfold hi
    simp

/-! ## The logits and the log-softmax -/

/-- The logits at (r, j): the three hidden vectors of row r against the three stretches of the output weights, plus the bias. -/
theorem logits (r : Fin 100000) (j : Fin 40) :
    val_main_v75 (F := Ideal) x0 x1 x2 x3 x4 x5 x6 x7 x8 x9 (ix2 r j)
      = logit (hid (fun c => x0 (ix2 r c)) (fun c k => x2 (ix2 c k)) (fun k => x3 (ix1 k)))
          (hid (fun c => val_main_v42 (F := Ideal) x0 x1 (ix2 r c)) (fun c k => x4 (ix2 c k)) (fun k => x5 (ix1 k)))
          (hid (fun c => val_main_v55 (F := Ideal) x0 x1 (ix2 r c)) (fun c k => x6 (ix2 c k)) (fun k => x7 (ix1 k)))
          (fun k j => x8 (ix2 k j)) (fun j => x9 (ix1 j)) j := by
  rw [val_main_v75_apply, val_main_v72_apply, val_main_v74_apply, val_main_v73_apply, sum_three]
  show ((_ + _) + _) + _ = ((_ + _) + _) + _
  refine congrArg₂ (· + ·) (congrArg₂ (· + ·) (congrArg₂ (· + ·) (Finset.sum_congr rfl fun k _ => ?_) (Finset.sum_congr rfl fun k _ => ?_))
    (Finset.sum_congr rfl fun k _ => ?_)) (congrArg x9 ?_)
  · exact congrArg₂ (· * ·) ((cat_lo x0 x1 x2 x3 x4 x5 x6 x7 r j k).trans (hid1 x0 x2 x3 r k)) (congrArg x8 (by idx2))
  · exact congrArg₂ (· * ·) ((cat_mid x0 x1 x2 x3 x4 x5 x6 x7 r j k).trans (hid2 x0 x1 x4 x5 r k)) (congrArg x8 (by idx2))
  · exact congrArg₂ (· * ·) ((cat_hi x0 x1 x2 x3 x4 x5 x6 x7 r j k).trans (hid3 x0 x1 x6 x7 r k)) (congrArg x8 (by idx2))
  · idx1

/-- The result at (r, j): log-softmax of the logits of row r. -/
theorem out_apply (r : Fin 100000) (j : Fin 40) :
    val_main_v76 (F := Ideal) x0 x1 x2 x3 x4 x5 x6 x7 x8 x9 (ix2 r j) = lsm (fun q => val_main_v75 (F := Ideal) x0 x1 x2 x3 x4 x5 x6 x7 x8 x9 (ix2 r q)) j := by
  -- the row maximum (with the extra maximum against −∞), broadcast back, at any column of row r
  have hM : ∀ q : Fin 40, val_main_call4_v4 (F := Ideal) x0 x1 x2 x3 x4 x5 x6 x7 x8 x9 (ix2 r q) = rowMax (fun q => val_main_v75 (F := Ideal) x0 x1 x2 x3 x4 x5 x6 x7 x8 x9 (ix2 r q)) := fun q => by
    rw [val_main_call4_v4_apply, val_main_call4_v3_apply, val_main_call4_v2_apply, val_main_call4_v1_apply, val_main_call4_cst_0_apply,
      (by idx1 : idx_main_call4_v3 (idx_main_call4_v4 (ix2 r q)) = ix1 r)]
    unfold val_main_call4_v0
    rw [Cert.LibRowOps.hostRowMax_apply (R := 100000) (C := 40) _ _ reducesTo_S100000x40_S100000_d1 (by decide) h_S_ r]
    show max (Ideal.ofBits .f32 0xFF800000#32) ((Finset.univ : Finset (Fin 40)).fold max (Ideal.ofBits .f32 0xFF800000#32) _) = _
    rw [negInf_f32]
    exact max_bot_fold _
  -- the logarithm of the row's sum of exponentials, broadcast back
  have hS : val_main_call4_v10 (F := Ideal) x0 x1 x2 x3 x4 x5 x6 x7 x8 x9 (ix2 r j)
      = Ideal.log (∑ q : Fin 40, Ideal.exp (val_main_v75 (F := Ideal) x0 x1 x2 x3 x4 x5 x6 x7 x8 x9 (ix2 r q) - rowMax (fun q => val_main_v75 (F := Ideal) x0 x1 x2 x3 x4 x5 x6 x7 x8 x9 (ix2 r q)))) := by
    rw [val_main_call4_v10_apply, val_main_call4_v9_apply, val_main_call4_v8_apply, val_main_call4_v7_apply, val_main_call4_cst_1_apply]
    show Ideal.log (Ideal.ofBits .f32 0x00000000#32 + _) = _
    rw [Ideal.ofBits_zero_f32, zero_add]
    refine congrArg Ideal.log (Finset.sum_congr rfl fun q _ => ?_)
    rw [(by idx2 : idx_main_call4_v7 (idx_main_call4_v8 (idx_main_call4_v10 (ix2 r j))) q = ix2 r q), val_main_call4_v6_apply,
      val_main_call4_v5_apply, hM q]
    rfl
  rw [val_main_v76_apply, val_main_call4_v5_apply, hM j, hS]
  rfl

/-- THE REFERENCE'S RESULT ARRAY is the function G of its arguments, with the two propagated feature arrays the reference's own terms. -/
theorem result_eq :
    val_main_v76 (F := Ideal) x0 x1 x2 x3 x4 x5 x6 x7 x8 x9
      = G x0 (val_main_v42 (F := Ideal) x0 x1) (val_main_v55 (F := Ideal) x0 x1) x2 x4 x6 x3 x5 x7 x8 x9 := by
  funext i
  obtain ⟨r, j, rfl⟩ : ∃ (r : Fin 100000) (j : Fin 40), i = ix2 r j := ⟨i 0, i 1, eq_ix2 i⟩
  rw [out_apply]
  show lsm _ j = lsm _ j
  exact congrArg (fun L : Fin 40 → EReal => lsm L j) (funext fun q => logits x0 x1 x2 x3 x4 x5 x6 x7 x8 x9 r q)

end Cert.ReferenceIdeal.RowValue

end
-- ==== Proof.lean ====
/-
  A three-branch graph network's dense tail, fused in one kernel, against its plain reference.

  Both programs first compute, on the host and by the same operations, the node features propagated once and twice over the graph.
  Then, for every node (row) r: three hidden layers relu(h · W + b) on the features and their two propagated versions, a linear layer
  on the three hidden vectors laid end to end, and log-softmax over the 40 classes. The reference does this on whole arrays; the
  kernel does it 4000 rows at a time over a grid of 25 points, with the linear layer written as three products against the three
  32-row stretches of the output weights.

  On the extended reals the two are one function of the arguments, entry by entry (RowNet.out of row r):
    * a change of float format is the identity, and a product into a zero accumulator is the plain sum over the shared positions,
      so each hidden layer is the same sum, bias and maximum with zero on both sides;
    * one sum over the 96 positions of the laid-out hidden vectors is the sum of its three stretches of 32 (only that addition is
      commutative and associative is used, so nothing needs the inputs to be finite);
    * log-softmax is (L − M) − log Σ exp(L − M) with M the row's maximum on both sides; the reference takes the maximum with −∞ once
      more, which changes nothing, and starts its sum from the zero word, which adds nothing.
  The kernel's 25 output blocks tile the 100000 rows, so its result array is that function everywhere (KernelArray); the reference's
  result, read one operation at a time, is the same function (RefRow). The frames are the generated ones; the idealization rewrote
  nothing, so its conjunct is trivial.
-/
import proofs.«122745_j4320737100473_1_alg».proof.Defs
import proofs.«122745_j4320737100473_1_alg».proof.Proof.Gen.Kernel
import proofs.«122745_j4320737100473_1_alg».proof.Proof.Gen.Kernel.Skeleton
import proofs.«122745_j4320737100473_1_alg».proof.Proof.Gen.Kernel.Launch
import proofs.«122745_j4320737100473_1_alg».proof.Proof.Gen.Kernel.Points
import proofs.«122745_j4320737100473_1_alg».proof.Proof.Gen.Kernel.Frame
import proofs.«122745_j4320737100473_1_alg».proof.Proof.Gen.KernelIdeal
import proofs.«122745_j4320737100473_1_alg».proof.Proof.Gen.KernelIdeal.Skeleton
import proofs.«122745_j4320737100473_1_alg».proof.Proof.Gen.KernelIdeal.Launch
import proofs.«122745_j4320737100473_1_alg».proof.Proof.Gen.KernelIdeal.Points
import proofs.«122745_j4320737100473_1_alg».proof.Proof.Gen.KernelIdeal.Frame
import proofs.«122745_j4320737100473_1_alg».proof.Proof.Gen.ReferenceIdeal
import proofs.«122745_j4320737100473_1_alg».proof.Proof.Gen.Pre_finite_inputs
import proofs.«122745_j4320737100473_1_alg».proof.Proof.Gen.KernelIdeal.Value
import proofs.«122745_j4320737100473_1_alg».proof.Proof.RefRun
import proofs.«122745_j4320737100473_1_alg».proof.Proof.RefRead
import proofs.«122745_j4320737100473_1_alg».proof.Proof.KernelArray
import proofs.«122745_j4320737100473_1_alg».proof.Proof.RefRow
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the result array G of the arguments: the kernel's blocks tile
    it (KernelArray.run), and the reference's composed term is it (RefRow.result_eq). -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩) (Cert.ReferenceIdeal.ValueP.run (F := Ideal) m' ρ')
  obtain ⟨h0, h1, h2, h3, h4, h5, h6, h7, h8, h9⟩ := hagree c
  rw [Cert.ReferenceIdeal.ReadP.val_main_v76_eq, Cert.ReferenceIdeal.RowValue.result_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
